-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x50000x128 : Shape := ⟨3, ![1, 50000, 128]⟩
abbrev S2x800000 : Shape := ⟨2, ![2, 800000]⟩
abbrev S_ : Shape := ⟨0, ![]⟩

class Facts : Prop where
  bcast_S_S1x50000x128 : S_.BroadcastsInDim S1x50000x128 (![] : Fin 0 → Fin S1x50000x128.rank)
  reducesTo_S1x50000x128_S_d0_1_2 : S1x50000x128.ReducesTo [0, 1, 2] S_
  h_S_ : 0 < S_.numel

variable [Facts]

def fn {F : FTy → Type} [FloatOps F] (main_arg0 : FVec F S1x50000x128 .f32) (main_arg1 : FVec F S1x50000x128 .f32) (main_arg2 : FVec F S1x50000x128 .f32) (main_arg3 : IVec S2x800000 32) : IVec S_ 1 :=
  let main_v0 : FVec F S1x50000x128 .f32 := Host.absf main_arg0
  let main_cst : FVec F S_ .f32 := constant S_ .f32 0x7F800000#32
  let main_v1 : FVec F S1x50000x128 .f32 := broadcastInDim S1x50000x128 ![] bcast_S_S1x50000x128 main_cst
  let main_v2 : IVec S1x50000x128 1 := cmpf .olt main_v0 main_v1
  let main_c : IVec S_ 1 := constantI S_ 1 1#1
  let main_v3 : IVec S_ 1 := (fun x v => Host.reduce IntOp.andi x v reducesTo_S1x50000x128_S_d0_1_2 h_S_) main_v2 main_c
  let main_v4 : FVec F S1x50000x128 .f32 := Host.absf main_arg1
  let main_cst_0 : FVec F S_ .f32 := constant S_ .f32 0x7F800000#32
  let main_v5 : FVec F S1x50000x128 .f32 := broadcastInDim S1x50000x128 ![] bcast_S_S1x50000x128 main_cst_0
  let main_v6 : IVec S1x50000x128 1 := cmpf .olt main_v4 main_v5
  let main_c_1 : IVec S_ 1 := constantI S_ 1 1#1
  let main_v7 : IVec S_ 1 := (fun x v => Host.reduce IntOp.andi x v reducesTo_S1x50000x128_S_d0_1_2 h_S_) main_v6 main_c_1
  let main_v8 : IVec S_ 1 := andi main_v3 main_v7
  let main_v9 : FVec F S1x50000x128 .f32 := Host.absf main_arg2
  let main_cst_2 : FVec F S_ .f32 := constant S_ .f32 0x7F800000#32
  let main_v10 : FVec F S1x50000x128 .f32 := broadcastInDim S1x50000x128 ![] bcast_S_S1x50000x128 main_cst_2
  let main_v11 : IVec S1x50000x128 1 := cmpf .olt main_v9 main_v10
  let main_c_3 : IVec S_ 1 := constantI S_ 1 1#1
  let main_v12 : IVec S_ 1 := (fun x v => Host.reduce IntOp.andi x v reducesTo_S1x50000x128_S_d0_1_2 h_S_) main_v11 main_c_3
  let main_v13 : IVec S_ 1 := andi main_v8 main_v12
  main_v13
-- ==== Kernel.lean ====
abbrev S1x50000x128 : Shape := ⟨3, ![1, 50000, 128]⟩
abbrev S2x800000 : Shape := ⟨2, ![2, 800000]⟩
abbrev S128x8 : Shape := ⟨2, ![128, 8]⟩
abbrev S8x128 : Shape := ⟨2, ![8, 128]⟩
abbrev S50000x128 : Shape := ⟨2, ![50000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S4000x128 : Shape := ⟨2, ![4000, 128]⟩
abbrev S4000x8 : Shape := ⟨2, ![4000, 8]⟩
abbrev S5000x128 : Shape := ⟨2, ![5000, 128]⟩

abbrev nBuf : Space → Nat
  | .hbm => 52
  | .vmem => 18
  | .smem => 0
  | _ => 0

abbrev bufTy : (tb : Table) → Fin (tcTables nBuf tb) → BufTy
  | .hbm, ⟨0, _⟩ => ⟨S1x50000x128, .f32⟩
  | .hbm, ⟨1, _⟩ => ⟨S1x50000x128, .f32⟩
  | .hbm, ⟨2, _⟩ => ⟨S1x50000x128, .f32⟩
  | .hbm, ⟨3, _⟩ => ⟨S2x800000, .i32⟩
  | .hbm, ⟨4, _⟩ => ⟨S128x8, .f32⟩
  | .hbm, ⟨5, _⟩ => ⟨S8x128, .f32⟩
  | .hbm, ⟨6, _⟩ => ⟨S50000x128, .f32⟩
  | .hbm, ⟨7, _⟩ => ⟨S50000x128, .f32⟩
  | .hbm, ⟨8, _⟩ => ⟨S50000x128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x128, .f32⟩
  | .hbm, ⟨51, _⟩ => ⟨S1x50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x8, .f32⟩
  | .local _ .vmem, ⟨7, _⟩ => ⟨S8x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | _, _ => ⟨S1x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S1x50000x128_S50000x128 : S1x50000x128.ShapeCasts S50000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x8_S128x8_0_0 : ∀ a, (![0, 0] : Fin 2 → Nat) a + S128x8.size a ≤ S128x8.size a
  h_S128x8 : 0 < S128x8.numel
  inb_S8x128_S8x128_0_0 : ∀ a, (![0, 0] : Fin 2 → Nat) a + S8x128.size a ≤ S8x128.size a
  h_S8x128 : 0 < S8x128.numel
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S50000x128_S1x50000x128 : S50000x128.ShapeCasts S1x50000x128
  gather_S50000x128_S800000x1_S800000x128_1_0_n_n_0_1_1128_wf : GatherDims.WF S50000x128 S800000x1 S800000x128 [1] [0] [] [0] [] 1 ![1, 128]
  dot_S4000x128_S128x8_S4000x8_1_0_0_1_n_n_wf : DotDims.WF S4000x128 S128x8 S4000x8 [1] [0] [0] [1] [] []
  dot_S4000x8_S8x128_S4000x128_1_0_0_1_n_n_wf : DotDims.WF S4000x8 S8x128 S4000x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S800000x128.size a
  hwx0_2 : ∀ i : grid0.Coords, EltTy.bits .f32 = 32 ∨ (Rect.block (s := S800000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x8.size a ≤ S128x8.size a
  hwx0_3 : ∀ i : grid0.Coords, EltTy.bits .f32 = 32 ∨ (Rect.block (s := S128x8) S128x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S800000x128.size a
  hwx0_5 : ∀ i : grid0.Coords, EltTy.bits .f32 = 32 ∨ (Rect.block (s := S800000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S800000x128.size a
  hwx0_6 : ∀ i : grid0.Coords, EltTy.bits .f32 = 32 ∨ (Rect.block (s := S800000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x8_S4000x8_1_0_0_1_n_n : DotDims S4000x128 S128x8 S4000x8 where
  lhsContracting := [1]
  rhsContracting := [0]
  lhsNonContracting := [0]
  rhsNonContracting := [1]
  lhsBatch := []
  rhsBatch := []
  wf := dot_S4000x128_S128x8_S4000x8_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v13) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_cst) S128x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_cst_0) S8x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28_1) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x50000x128 : Shape := ⟨3, ![1, 50000, 128]⟩
abbrev S2x800000 : Shape := ⟨2, ![2, 800000]⟩
abbrev S50000x8x16 : Shape := ⟨3, ![50000, 8, 16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x8x16 : Shape := ⟨3, ![800000, 8, 16]⟩
abbrev S800000x8 : Shape := ⟨2, ![800000, 8]⟩
abbrev S800000x8x1 : Shape := ⟨3, ![800000, 8, 1]⟩
abbrev S50000x8x1 : Shape := ⟨3, ![50000, 8, 1]⟩

abbrev nBuf : Space → Nat
  | .hbm => 70
  | .vmem => 0
  | .smem => 0
  | _ => 0

abbrev bufTy : (tb : Table) → Fin (tcTables nBuf tb) → BufTy
  | .hbm, ⟨0, _⟩ => ⟨S1x50000x128, .f32⟩
  | .hbm, ⟨1, _⟩ => ⟨S1x50000x128, .f32⟩
  | .hbm, ⟨2, _⟩ => ⟨S1x50000x128, .f32⟩
  | .hbm, ⟨3, _⟩ => ⟨S2x800000, .i32⟩
  | .hbm, ⟨4, _⟩ => ⟨S50000x8x16, .f32⟩
  | .hbm, ⟨5, _⟩ => ⟨S50000x8x16, .f32⟩
  | .hbm, ⟨6, _⟩ => ⟨S50000x8x16, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x8x16, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x8x16, .f32⟩
  | .hbm, ⟨29, _⟩ => ⟨S800000x8x16, .f32⟩
  | .hbm, ⟨30, _⟩ => ⟨S_, .f32⟩
  | .hbm, ⟨31, _⟩ => ⟨S800000x8x16, .f32⟩
  | .hbm, ⟨32, _⟩ => ⟨S800000x8x16, .f32⟩
  | .hbm, ⟨33, _⟩ => ⟨S_, .f32⟩
  | .hbm, ⟨34, _⟩ => ⟨S800000x8, .f32⟩
  | .hbm, ⟨35, _⟩ => ⟨S800000x8x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S800000x8x1, .f32⟩
  | .hbm, ⟨40, _⟩ => ⟨S800000x8x1, .f32⟩
  | .hbm, ⟨41, _⟩ => ⟨S_, .f32⟩
  | .hbm, ⟨42, _⟩ => ⟨S800000x8x1, .f32⟩
  | .hbm, ⟨43, _⟩ => ⟨S800000x8x1, .f32⟩
  | .hbm, ⟨44, _⟩ => ⟨S800000x8x1, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x8x16, .f32⟩
  | .hbm, ⟨54, _⟩ => ⟨S800000x8x16, .f32⟩
  | .hbm, ⟨55, _⟩ => ⟨S800000x8x16, .f32⟩
  | .hbm, ⟨56, _⟩ => ⟨S_, .f32⟩
  | .hbm, ⟨57, _⟩ => ⟨S50000x8x16, .f32⟩
  | .hbm, ⟨58, _⟩ => ⟨S800000x1, .i32⟩
  | .hbm, ⟨59, _⟩ => ⟨S50000x8x16, .f32⟩
  | .hbm, ⟨60, _⟩ => ⟨S_, .f32⟩
  | .hbm, ⟨61, _⟩ => ⟨S50000x8x1, .f32⟩
  | .hbm, ⟨62, _⟩ => ⟨S800000x1, .i32⟩
  | .hbm, ⟨63, _⟩ => ⟨S50000x8x1, .f32⟩
  | .hbm, ⟨64, _⟩ => ⟨S_, .f32⟩
  | .hbm, ⟨65, _⟩ => ⟨S50000x8x1, .f32⟩
  | .hbm, ⟨66, _⟩ => ⟨S50000x8x1, .f32⟩
  | .hbm, ⟨67, _⟩ => ⟨S50000x8x16, .f32⟩
  | .hbm, ⟨68, _⟩ => ⟨S50000x8x16, .f32⟩
  | .hbm, ⟨69, _⟩ => ⟨S1x50000x128, .f32⟩
  | _, _ => ⟨S1x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  shapeCasts_S1x50000x128_S50000x8x16 : S1x50000x128.ShapeCasts S50000x8x16
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x16 : S_.BroadcastsInDim S800000x8x16 (![] : Fin 0 → Fin S800000x8x16.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S50000x8x16_S1x50000x128 : S50000x8x16.ShapeCasts S1x50000x128
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  scatter_S50000x8x1_S800000x1_S800000x8x1_12_0_0_1_wf : ScatterDims.WF S50000x8x1 S800000x1 S800000x8x1 [1, 2] [0] [0] 1

variable [Facts₀]

def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf

class Facts : Prop extends Facts₀ where

variable [Facts]
-- ==== Proof.Spec.lean ====
/-
  What both programs compute, as ONE function of the flattened arrays.

  N = 50000 nodes with 128 lanes each, read as 8 heads of 16 lanes; E = 800000 edges. An edge `e` has a source row and
  a destination row of the node tables — the row a gather with start word `w` reads is `rowOf w`: the word read signed,
  clamped into [0, N - 1] — and a segment, the raw destination word read signed, that says which node's accumulators the
  edge adds to (an edge whose segment is no node adds to none).

      prod e l   = K[src e, l] · Q[dst e, l]
      score e h  = exp (min 5 (max (-5) (∑ d < 16, prod e (16 h + d) / 4)))
      msg e l    = V[src e, l] · score e (l / 16)
      wV n l     = 0 + ∑ e with segment n, msg e l
      Z n h      = 0 + ∑ e with segment n, score e h
      out n l    = wV n l / (Z n (l / 16) + ε)

  The five index vectors are parameters: both programs compute them by the same integer operations on the edge list,
  so neither side ever opens them. Everything is on the extended reals; no step needs a finite input.
-/
import Idealize.ShloMosaic.PureOps.Ideal
import Idealize.ShloMosaic.Lib.ValueIdx

noncomputable section

namespace Cert.Attn

open Idealize.ShloMosaic Idealize.ShloMosaic.ValueIdx

/-- A node table flattened to rows of 128 lanes. -/
abbrev Tbl := (⟨2, ![50000, 128]⟩ : Shape).Idx → EReal
/-- One 32-bit word per edge, as a column. -/
abbrev EdgeWords := (⟨2, ![800000, 1]⟩ : Shape).Idx → BitVec 32

/-- Lane `d` of head `h`. -/
def lane (h : Fin 8) (d : Fin 16) : Fin 128 := ⟨16 * h.val + d.val, by have := h.isLt; have := d.isLt; omega⟩
/-- The head a lane belongs to. -/
def headOf (l : Fin 128) : Fin 8 := ⟨l.val / 16, by have := l.isLt; omega⟩

theorem headOf_lane (h : Fin 8) (d : Fin 16) : headOf (lane h d) = h := by
  apply Fin.ext; show (16 * h.val + d.val) / 16 = h.val; have := d.isLt; omega

/-- The table row a gather with start word `w` reads: the word read signed, clamped into the table. -/
def rowOf (w : BitVec 32) : Fin 50000 := ⟨min w.toInt.toNat (50000 - 1), by omega⟩

/-- The edge's word in a column of edge words. -/
abbrev wordAt (I : EdgeWords) (e : Fin 800000) : BitVec 32 := I (ix2 e (0 : Fin 1))

/-- The constants, as both programs print them. -/
abbrev c4 : EReal := Ideal.ofBits .f32 0x40800000#32
abbrev c5 : EReal := Ideal.ofBits .f32 0x40A00000#32
abbrev cm5 : EReal := Ideal.ofBits .f32 0xC0A00000#32
abbrev c0 : EReal := Ideal.ofBits .f32 0x00000000#32
abbrev ceps : EReal := Ideal.ofBits .f32 0x358637BD#32

section
variable (Q K V : Tbl) (sK dQ sV gW gZ : EdgeWords)

/-- The lane-wise product of the edge's source row of K and destination row of Q. -/
def prod (e : Fin 800000) (l : Fin 128) : EReal :=
  K (ix2 (rowOf (wordAt sK e)) l) * Q (ix2 (rowOf (wordAt dQ e)) l)

/-- The edge's score for a head: the head's 16 products, each over 4, summed, clipped to [-5, 5], exponentiated. -/
def score (e : Fin 800000) (h : Fin 8) : EReal :=
  Ideal.exp (min c5 (max cm5 (∑ d : Fin 16, Ideal.div (prod Q K sK dQ e (lane h d)) c4)))

/-- The edge's message on a lane: the source row of V times the lane's head's score. -/
def msg (e : Fin 800000) (l : Fin 128) : EReal :=
  V (ix2 (rowOf (wordAt sV e)) l) * score Q K sK dQ e (headOf l)

/-- The node's accumulated messages on a lane. -/
def wV (n : Fin 50000) (l : Fin 128) : EReal :=
  c0 + ∑ e : Fin 800000, if (wordAt gW e).toInt = (n.val : ℤ) then msg Q K V sK dQ sV e l else 0

/-- The node's accumulated scores for a head. -/
def Z (n : Fin 50000) (h : Fin 8) : EReal :=
  c0 + ∑ e : Fin 800000, if (wordAt gZ e).toInt = (n.val : ℤ) then score Q K sK dQ e h else 0

/-- The normalized result, as a table. -/
def out : Tbl := fun i =>
  Ideal.div (wV Q K V sK dQ sV gW (i 0) (i 1)) (Z Q K sK dQ gZ (i 0) (headOf (i 1)) + ceps)

end

/-! ## The edge list's index vectors and the flattening, by the operations both programs apply -/

abbrev SEdges : Shape := ⟨2, ![2, 800000]⟩
abbrev SArg : Shape := ⟨3, ![1, 50000, 128]⟩

theorem slices0 : SEdges.Slices ![0, 0] ⟨2, ![1, 800000]⟩ := by decide
theorem slices1 : SEdges.Slices ![1, 0] ⟨2, ![1, 800000]⟩ := by decide
theorem castsRow : (⟨2, ![1, 800000]⟩ : Shape).ShapeCasts ⟨1, ![800000]⟩ := by decide
theorem bcastScalar : (⟨0, ![]⟩ : Shape).BroadcastsInDim ⟨1, ![800000]⟩ (![] : Fin 0 → Fin 1) := by decide
theorem bcastColumn : (⟨1, ![800000]⟩ : Shape).BroadcastsInDim ⟨2, ![800000, 1]⟩ (![0] : Fin 1 → Fin 2) := by decide
theorem castsFlat : SArg.ShapeCasts ⟨2, ![50000, 128]⟩ := by decide
theorem castsUnflat : (⟨2, ![50000, 128]⟩ : Shape).ShapeCasts SArg := by decide

/-- Row `r` (0: sources, 1: destinations) of the edge list, as a vector of E words. -/
def edgeRow0 (ei : IVec SEdges 32) : IVec ⟨1, ![800000]⟩ 32 :=
  shapeCast _ (extractStridedSlice ⟨2, ![1, 800000]⟩ ![0, 0] ei slices0) castsRow
def edgeRow1 (ei : IVec SEdges 32) : IVec ⟨1, ![800000]⟩ 32 :=
  shapeCast _ (extractStridedSlice ⟨2, ![1, 800000]⟩ ![1, 0] ei slices1) castsRow

/-- A negative word wrapped by N, as indexing does before it gathers. -/
def wrapped (x : IVec ⟨1, ![800000]⟩ 32) : IVec ⟨1, ![800000]⟩ 32 :=
  select (cmpi .slt x (broadcastInDim ⟨1, ![800000]⟩ ![] bcastScalar (constantI ⟨0, ![]⟩ 32 0#32)))
    (addi x (broadcastInDim ⟨1, ![800000]⟩ ![] bcastScalar (constantI ⟨0, ![]⟩ 32 50000#32))) x

/-- A vector of E words as a column. -/
def asColumn (x : IVec ⟨1, ![800000]⟩ 32) : EdgeWords := broadcastInDim ⟨2, ![800000, 1]⟩ ![0] bcastColumn x

/-- The start words of the gathers by source, by destination, and the segment words of the two accumulations. -/
def srcWords (ei : IVec SEdges 32) : EdgeWords := asColumn (wrapped (edgeRow0 ei))
def dstWords (ei : IVec SEdges 32) : EdgeWords := asColumn (wrapped (edgeRow1 ei))
def segWords (ei : IVec SEdges 32) : EdgeWords := asColumn (edgeRow1 ei)

/-- A [1, N, 128] argument as a table of N rows. -/
def flat (x : SArg.Idx → EReal) : Tbl := shapeCast _ x castsFlat

/-- THE RESULT both programs end with, as a function of the four arguments. -/
def result (q k v : SArg.Idx → EReal) (ei : IVec SEdges 32) : SArg.Idx → EReal :=
  shapeCast _ (out (flat q) (flat k) (flat v) (srcWords ei) (dstWords ei) (srcWords ei) (segWords ei) (segWords ei)) castsUnflat

end Cert.Attn

end
-- ==== Proof.KHost.lean ====
/-
  What the host operations around the two calls compute, buffer by buffer: before the first call the three gathered
  edge arrays (rows of the flattened K, Q and V tables at the wrapped source or destination words) and the two grouping
  literals; between the calls the two accumulations of the first call's outputs by raw destination word, from zero;
  after the second call the result reshaped to [1, N, 128].
-/
import proofs.«164880_j36404142800928_1_alg».proof.Proof.Gen.KernelIdeal.Frame
import proofs.«164880_j36404142800928_1_alg».proof.Proof.Spec
import Idealize.ShloMosaic.Lib.StableHlo.Run

set_option maxRecDepth 16384

noncomputable section

namespace Cert.KernelIdeal.HostVals

open Idealize.ShloMosaic Idealize.ShloMosaic.TcCoe Idealize.SL.Sem Idealize.ShloMosaic.ValueIdx
open Idealize.ShloMosaic.Pipeline (Dat Cfg)
open Cert.KernelIdeal Cert.KernelIdeal.Gen
open Idealize.ShloMosaic.StableHlo

variable (m : (ℓ : Loc nD τ sig) → Buf (Elt Ideal) ℓ) (ρ : Dev nD → PrngReg)

/-- K's rows at the edges' source words. -/
theorem v13_eq (c : Dev nD) : V1 m ρ c main_v13
    = Host.gather gather_S50000x128_S800000x1_S800000x128_1_0_n_n_0_1_1128 (Cert.Attn.flat (m ((c : Thread nD τ).loc main_arg1))) (Cert.Attn.srcWords (m ((c : Thread nD τ).loc main_arg3))) := by
  show StableHlo.after hostOps0 (W0 m ρ c) (Proc.devRef .tc main_v13) = _
  after_results_simp
  unfold Cert.Attn.flat Cert.Attn.srcWords Cert.Attn.asColumn Cert.Attn.wrapped Cert.Attn.edgeRow0
  rfl

/-- Q's rows at the edges' destination words. -/
theorem v20_eq (c : Dev nD) : V1 m ρ c main_v20
    = Host.gather gather_S50000x128_S800000x1_S800000x128_1_0_n_n_0_1_1128 (Cert.Attn.flat (m ((c : Thread nD τ).loc main_arg0))) (Cert.Attn.dstWords (m ((c : Thread nD τ).loc main_arg3))) := by
  show StableHlo.after hostOps0 (W0 m ρ c) (Proc.devRef .tc main_v20) = _
  after_results_simp
  unfold Cert.Attn.flat Cert.Attn.dstWords Cert.Attn.asColumn Cert.Attn.wrapped Cert.Attn.edgeRow1
  rfl

/-- V's rows at the edges' source words. -/
theorem v27_eq (c : Dev nD) : V1 m ρ c main_v27
    = Host.gather gather_S50000x128_S800000x1_S800000x128_1_0_n_n_0_1_1128 (Cert.Attn.flat (m ((c : Thread nD τ).loc main_arg2))) (Cert.Attn.srcWords (m ((c : Thread nD τ).loc main_arg3))) := by
  show StableHlo.after hostOps0 (W0 m ρ c) (Proc.devRef .tc main_v27) = _
  after_results_simp
  unfold Cert.Attn.flat Cert.Attn.srcWords Cert.Attn.asColumn Cert.Attn.wrapped Cert.Attn.edgeRow0
  rfl

/-- The lanes-by-heads literal. -/
theorem cst_eq (c : Dev nD) : V1 m ρ c main_cst = fun i => Ideal.ofBits .f32 (lit0 (S128x8.rowMajor i)) := by
  show StableHlo.after hostOps0 (W0 m ρ c) (Proc.devRef .tc main_cst) = _
  after_results_simp
  rfl

/-- The heads-by-lanes literal. -/
theorem cst0_eq (c : Dev nD) : V1 m ρ c main_cst_0 = fun i => Ideal.ofBits .f32 (lit1 (S8x128.rowMajor i)) := by
  show StableHlo.after hostOps0 (W0 m ρ c) (Proc.devRef .tc main_cst_0) = _
  after_results_simp
  rfl

/-- The raw destination words, as the second stretch of host operations reads them: the first call has no window on
    that buffer, so it still holds what the first stretch left there, row 1 of the edge list as a vector. -/
private theorem v6_eq (c : Dev nD) :
    W2 m ρ c (Proc.devRef .tc main_v6) = Cert.Attn.edgeRow1 (m ((c : Thread nD τ).loc main_arg3)) := by
  refine (W2_of_ne m ρ c main_v6 (by decide)).trans ?_
  show StableHlo.after hostOps0 (W0 m ρ c) (Proc.devRef .tc main_v6) = _
  after_results_simp
  unfold Cert.Attn.edgeRow1
  rfl

/-- The zero table both accumulations start from: the scalar constant broadcast to every entry. -/
private theorem zeros_eq : (broadcastInDim S50000x128 ![] bcast_S_S50000x128 (constant (F := Ideal) S_ FTy.f32 0x00000000#32))
    = fun _ => Cert.Attn.c0 := rfl

/-- The messages accumulated by raw destination word, from zero. -/
theorem v31_eq (c : Dev nD) : V3 m ρ c main_v31
    = Ideal.hostScatterAdd scatter_S50000x128_S800000x1_S800000x128_1_0_0_1 (fun _ => Cert.Attn.c0)
        (Cert.Attn.segWords (m ((c : Thread nD τ).loc main_arg3))) ((dat0 (V1 m ρ) c).arrAt 5 cfg0.N) := by
  show StableHlo.after hostOps1 (W2 m ρ c) (Proc.devRef .tc main_v31) = _
  after_results
  have e5 : W2 m ρ c (Proc.devRef .tc main_v28_0) = (dat0 (V1 m ρ) c).arrAt 5 cfg0.N := W2_arr m ρ c 5
  rw [v6_eq m ρ c, e5, zeros_eq]
  unfold Cert.Attn.segWords Cert.Attn.asColumn
  rfl

/-- The spread scores accumulated by raw destination word, from zero. -/
theorem v34_eq (c : Dev nD) : V3 m ρ c main_v34
    = Ideal.hostScatterAdd scatter_S50000x128_S800000x1_S800000x128_1_0_0_1 (fun _ => Cert.Attn.c0)
        (Cert.Attn.segWords (m ((c : Thread nD τ).loc main_arg3))) ((dat0 (V1 m ρ) c).arrAt 6 cfg0.N) := by
  show StableHlo.after hostOps1 (W2 m ρ c) (Proc.devRef .tc main_v34) = _
  after_results
  have e6 : W2 m ρ c (Proc.devRef .tc main_v28_1) = (dat0 (V1 m ρ) c).arrAt 6 cfg0.N := W2_arr m ρ c 6
  rw [v6_eq m ρ c, e6, zeros_eq]
  unfold Cert.Attn.segWords Cert.Attn.asColumn
  rfl

/-- The result buffer at the end: the second call's output, reshaped. -/
theorem v36_eq (c : Dev nD) : W5 m ρ c (Proc.devRef .tc main_v36)
    = shapeCast _ ((dat1 (V3 m ρ) c).arrAt 2 cfg1.N) Cert.Attn.castsUnflat := by
  show StableHlo.after hostOps2 (W4 m ρ c) (Proc.devRef .tc main_v36) = _
  after_results
  refine Eq.trans ?_ (congrArg (fun a => shapeCast Cert.Attn.SArg a Cert.Attn.castsUnflat) (W4_arr m ρ c 2))
  rfl

end Cert.KernelIdeal.HostVals

end
-- ==== Proof.LibPlainDot.lean ====
/-
  A plain matrix contraction, read as one sum.

  For ANY record of dimension numbers that contracts the left operand's axis 1 with the right operand's axis 0,
  keeps the left operand's axis 0 and the right operand's axis 1 in that order and has no batch axis — the
  dimension numbers of `A @ B` for A of shape [M, K] and B of shape [K, N], at any extents — the contraction
  over the record's own index type is the textbook sum

      (A @ B) (r, q) = ∑ k : Fin K, A (r, k) * B (k, q).

  So over the extended reals a host `dot_general` and a kernel matrix unit fed a zero accumulator, whatever
  records they carry, are both the function `mm`; and `mm` of a block of rows of A is that block of rows of
  `mm A B` (`mm_rows`): a row-tiled product computes the whole product.
-/
import Idealize.ShloMosaic.PureOps.Ideal.Laws
import Idealize.ShloMosaic.Lib.ValueIdx

noncomputable section

namespace Cert.PlainDot

open Idealize.ShloMosaic Idealize.ShloMosaic.ValueIdx

/-- The matrix product of an [M, K] and a [K, N] array, entry by entry a sum over the contracted axis. -/
def mm {M K N : Nat} (A : (⟨2, ![M, K]⟩ : Shape).Idx → EReal) (B : (⟨2, ![K, N]⟩ : Shape).Idx → EReal) :
    (⟨2, ![M, N]⟩ : Shape).Idx → EReal :=
  fun i => ∑ k : Fin K, A (ix2 (n0 := M) (n1 := K) (i 0) k) * B (ix2 (n0 := K) (n1 := N) k (i 1))

theorem mm_apply {M K N : Nat} (A : (⟨2, ![M, K]⟩ : Shape).Idx → EReal) (B : (⟨2, ![K, N]⟩ : Shape).Idx → EReal)
    (r : Fin M) (q : Fin N) :
    mm A B (ix2 r q) = ∑ k : Fin K, A (ix2 r k) * B (ix2 k q) := rfl

variable {M K N : Nat}

/-- The record's contraction, re-indexed by the one contracted coordinate, is the textbook sum. -/
theorem sum_eq_mm (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal)
    (i : (⟨2, ![M, N]⟩ : Shape).Idx) :
    ∑ q : D.contr.Idx, l (D.lhsIdx i q) * r (D.rhsIdx i q) = mm l r i := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  unfold mm
  refine Finset.sum_congr rfl fun k _ => ?_
  have hk := contrEquiv1_symm_val D K hr hs k
  have hlc : D.lhsContracting = [1] := by subst hD; rfl
  have hrc : D.rhsContracting = [0] := by subst hD; rfl
  have l0 : ∀ q : D.contr.Idx, (D.lhsIdx i q 0).val = (i 0).val := by
    subst hD
    intro q
    unfold DotDims.lhsIdx
    rw [dif_neg (by simp), dif_pos (by simp)]
    rfl
  have r1 : ∀ q : D.contr.Idx, (D.rhsIdx i q 1).val = (i 1).val := by
    subst hD
    intro q
    unfold DotDims.rhsIdx
    rw [dif_neg (by simp), dif_pos (by simp)]
    rfl
  have el : D.lhsIdx i ((contrEquiv1 D K hr hs).symm k) = ix2 (n0 := M) (n1 := K) (i 0) k := funext fun a => Fin.ext (by
    match a with
    | ⟨0, _⟩ => exact l0 _
    | ⟨1, _⟩ => exact (D.lhsIdx_val_of_single hlc i _).trans hk)
  have er : D.rhsIdx i ((contrEquiv1 D K hr hs).symm k) = ix2 (n0 := K) (n1 := N) k (i 1) := funext fun a => Fin.ext (by
    match a with
    | ⟨0, _⟩ => exact (D.rhsIdx_val_of_single hrc i _).trans hk
    | ⟨1, _⟩ => exact r1 _)
  rw [el, er]

/-- A host `dot_general` with such a record is `mm`, whatever its precision and schedule. -/
theorem dotGeneral_eq_mm {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal ⟨2, ![M, K]⟩ φ₁) (r : FVec Ideal ⟨2, ![K, N]⟩ φ₂) :
    FloatOps.dotGeneral D prec sched l r = mm l r := by
  funext i
  rw [Ideal.dotGeneral_apply]
  exact sum_eq_mm D h1 h2 h3 h4 h5 h6 l r i

/-- A kernel matrix unit with such a record, fed the zero accumulator, is `mm`. -/
theorem matmul_zero_eq_mm {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision)
    (l : FVec Ideal ⟨2, ![M, K]⟩ φ₁) (r : FVec Ideal ⟨2, ![K, N]⟩ φ₂) :
    FloatOps.matmul D prec l r (constant (F := Ideal) ⟨2, ![M, N]⟩ .f32 0x00000000#32) = mm l r := by
  funext i
  rw [Ideal.matmul_constant_zero_apply]
  exact sum_eq_mm D h1 h2 h3 h4 h5 h6 l r i

/-- Rows `o, o + 1, …, o + P - 1` of a product are the product of those rows of the left factor. -/
theorem mm_rows {P : Nat} (A : (⟨2, ![M, K]⟩ : Shape).Idx → EReal) (B : (⟨2, ![K, N]⟩ : Shape).Idx → EReal)
    (Ablk : (⟨2, ![P, K]⟩ : Shape).Idx → EReal) (o : Nat)
    (hA : ∀ (p : Fin P) (k : Fin K) (hp : o + p.val < M), Ablk (ix2 p k) = A (ix2 ⟨o + p.val, hp⟩ k))
    (p : Fin P) (q : Fin N) (hp : o + p.val < M) :
    mm Ablk B (ix2 p q) = mm A B (ix2 ⟨o + p.val, hp⟩ q) := by
  rw [mm_apply, mm_apply]
  exact Finset.sum_congr rfl fun k _ => by rw [hA p k hp]

end Cert.PlainDot

end
-- ==== Proof.KRegion0.lean ====
/-
  The first call's two output arrays, each as one function of the arrays the call finds.

  The call walks the E edges in 200 blocks of 4000 rows. On a block the body forms, row by row, the lane products of
  the K and Q rows times a quarter, multiplies them into the 128 by 8 grouping matrix (one sum per head), clips and
  exponentiates, and multiplies the 8 scores back through the 8 by 128 matrix (each lane receives its head's score):
  `scoreB`. It stores that, and its lane-wise product with the V rows. A row of a product of matrices depends on the same
  row of the left factor only, so the blocks are the blocks of the whole-array functions, and the blocks cover the array.
-/
import proofs.«164880_j36404142800928_1_alg».proof.Proof.Gen.KernelIdeal.Frame
import proofs.«164880_j36404142800928_1_alg».proof.Proof.LibPlainDot
import proofs.«164880_j36404142800928_1_alg».proof.Proof.Spec
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat Cfg)
open Cert.KernelIdeal Cert.KernelIdeal.Gen

variable (V : (c : Dev nD) → (b : Ref sig .tc) → Buf (Elt Ideal) ((c : Thread nD τ).loc b))

/-- The arrays the call finds, each named at its literal type: the gathered K, Q and V rows and the two grouping literals. -/
abbrev arrK (c : Dev nD) : S800000x128.Idx → EReal := V c main_v13
abbrev arrQ (c : Dev nD) : S800000x128.Idx → EReal := V c main_v20
abbrev arrV (c : Dev nD) : S800000x128.Idx → EReal := V c main_v27
abbrev arrG (c : Dev nD) : S128x8.Idx → EReal := V c main_cst
abbrev arrGT (c : Dev nD) : S8x128.Idx → EReal := V c main_cst_0

/-- Every edge's scores, already spread over the lanes of their heads: with P = Kg · Qg · ¼ lane-wise,
    (exp (clip (P · Gm))) · GTm as matrix products over all E rows. -/
def scoreB (Kg Qg : S800000x128.Idx → EReal) (Gm : S128x8.Idx → EReal) (GTm : S8x128.Idx → EReal) :
    S800000x128.Idx → EReal :=
  Cert.PlainDot.mm (M := 800000) (K := 8) (N := 128)
    (fun j => Ideal.exp (min Cert.Attn.c5 (max Cert.Attn.cm5
      (Cert.PlainDot.mm (M := 800000) (K := 128) (N := 8)
        (fun i => Kg i * Qg i * Ideal.ofBits .f32 0x3E800000#32) Gm j)))) GTm

/-- The zero offsets of a whole-block access, however they are spelt. -/
private theorem hz : (![0, 0] : Fin 2 → Nat) = fun _ => 0 := funext fun a => by fin_cases a <;> rfl

/-- The scores of one block of rows, spread over the lanes: the same two products over the block's rows. -/
private def scoreBlk (x0 x1 : S4000x128.Idx → EReal) (Gm : S128x8.Idx → EReal) (GTm : S8x128.Idx → EReal) :
    S4000x128.Idx → EReal :=
  Cert.PlainDot.mm (M := 4000) (K := 8) (N := 128)
    (fun j => Ideal.exp (min Cert.Attn.c5 (max Cert.Attn.cm5
      (Cert.PlainDot.mm (M := 4000) (K := 128) (N := 8)
        (fun i => x0 i * x1 i * Ideal.ofBits .f32 0x3E800000#32) Gm j)))) GTm

/-- What the body stores second: each matrix unit fed a zero accumulator is a plain product, and the operations
    between them act entry by entry, so the stored block is the block's spread scores. -/
private theorem pay1_eq (x0 x1 : Vec Ideal S4000x128 .f32) (x3 : Vec Ideal S128x8 .f32) (x4 : Vec Ideal S8x128 .f32) :
    k0_pay1 x0 x1 x3 x4 = scoreBlk x0 x1 x3 x4 := by
  unfold k0_pay1 scoreBlk
  simp only [shapeCast_self]
  refine (Cert.PlainDot.matmul_zero_eq_mm (M := 4000) (K := 8) (N := 128)
    dot_S4000x8_S8x128_S4000x128_1_0_0_1_n_n rfl rfl rfl rfl rfl rfl _ _ _).trans ?_
  refine congrArg (fun A => Cert.PlainDot.mm (M := 4000) (K := 8) (N := 128) A x4) (funext fun j => ?_)
  refine congrArg (fun z => Ideal.exp (min Cert.Attn.c5 (max Cert.Attn.cm5 z))) ?_
  exact congrFun (Cert.PlainDot.matmul_zero_eq_mm (M := 4000) (K := 128) (N := 8)
    dot_S4000x128_S128x8_S4000x8_1_0_0_1_n_n rfl rfl rfl rfl rfl rfl _ _ _) j

/-- The first stored block at an index: the V rows' block times the scores' block, lane by lane. -/
private theorem pay2_apply (x0 x1 x2 : Vec Ideal S4000x128 .f32) (x3 : Vec Ideal S128x8 .f32) (x4 : Vec Ideal S8x128 .f32)
    (j : S4000x128.Idx) : k0_pay2 x0 x1 x3 x4 x2 j = x2 j * scoreBlk x0 x1 x3 x4 j := by
  unfold k0_pay2
  simp only [shapeCast_self]
  rw [pay1_eq]
  rfl

/-- A row of a product depends on the same row of the left factor only: rows o … o + 3999 of the whole arrays'
    scores are the scores of any block that holds those rows of K and Q. -/
private theorem scoreBlk_rows (Kg Qg : S800000x128.Idx → EReal) (Gm : S128x8.Idx → EReal) (GTm : S8x128.Idx → EReal)
    (x0 x1 : S4000x128.Idx → EReal) (o : Nat)
    (h0 : ∀ (p : Fin 4000) (l : Fin 128) (hp : o + p.val < 800000), x0 (ix2 p l) = Kg (ix2 ⟨o + p.val, hp⟩ l))
    (h1 : ∀ (p : Fin 4000) (l : Fin 128) (hp : o + p.val < 800000), x1 (ix2 p l) = Qg (ix2 ⟨o + p.val, hp⟩ l))
    (p : Fin 4000) (q : Fin 128) (hp : o + p.val < 800000) :
    scoreBlk x0 x1 Gm GTm (ix2 p q) = scoreB Kg Qg Gm GTm (ix2 ⟨o + p.val, hp⟩ q) := by
  unfold scoreBlk scoreB
  refine Cert.PlainDot.mm_rows (M := 800000) (K := 8) (N := 128) (P := 4000) _ GTm _ o (fun p' k hp' => ?_) p q hp
  beta_reduce
  refine congrArg (fun z => Ideal.exp (min Cert.Attn.c5 (max Cert.Attn.cm5 z))) ?_
  refine Cert.PlainDot.mm_rows (M := 800000) (K := 128) (N := 8) (P := 4000) _ Gm _ o (fun p'' l hp'' => ?_) p' k hp'
  beta_reduce
  rw [h0 p'' l hp'', h1 p'' l hp'']

/-- The index maps over the 200 points: every row window's block is (t, 0), the two literals' is (0, 0). -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The K rows' block at point t is rows 4000 t … 4000 t + 3999 of the K rows. -/
private theorem iblkK_apply (c : Dev nD) (t : Fin cfg0.N) (x : S4000x128.Idx) (k : S800000x128.Idx)
    (hk0 : (k 0).val = 4000 * t.val + (x 0).val) (hk1 : (k 1).val = (x 1).val) :
    (iblk0 V c 0 t : Vec Ideal S4000x128 .f32) x = arrK V c k := by
  obtain ⟨e0, e1, -⟩ := idx_facts t
  unfold iblk0
  rw [View.read_apply]
  show arrK V c _ = arrK V c _
  congr 1
  funext a
  apply Fin.ext
  match a with
  | ⟨0, _⟩ => show win0_0.index t (0 : Fin 2) * 4000 + 1 * (x 0).val = (k 0).val; rw [e0, hk0]; omega
  | ⟨1, _⟩ => show win0_0.index t (1 : Fin 2) * 128 + 1 * (x 1).val = (k 1).val; rw [e1, hk1]; omega

/-- The Q rows' block at point t is rows 4000 t … 4000 t + 3999 of the Q rows. -/
private theorem iblkQ_apply (c : Dev nD) (t : Fin cfg0.N) (x : S4000x128.Idx) (k : S800000x128.Idx)
    (hk0 : (k 0).val = 4000 * t.val + (x 0).val) (hk1 : (k 1).val = (x 1).val) :
    (iblk0 V c 1 t : Vec Ideal S4000x128 .f32) x = arrQ V c k := by
  obtain ⟨-, -, e0, e1, -⟩ := idx_facts t
  unfold iblk0
  rw [View.read_apply]
  show arrQ V c _ = arrQ V c _
  congr 1
  funext a
  apply Fin.ext
  match a with
  | ⟨0, _⟩ => show win0_1.index t (0 : Fin 2) * 4000 + 1 * (x 0).val = (k 0).val; rw [e0, hk0]; omega
  | ⟨1, _⟩ => show win0_1.index t (1 : Fin 2) * 128 + 1 * (x 1).val = (k 1).val; rw [e1, hk1]; omega

/-- The V rows' block at point t is rows 4000 t … 4000 t + 3999 of the V rows. -/
private theorem iblkV_apply (c : Dev nD) (t : Fin cfg0.N) (x : S4000x128.Idx) (k : S800000x128.Idx)
    (hk0 : (k 0).val = 4000 * t.val + (x 0).val) (hk1 : (k 1).val = (x 1).val) :
    (iblk0 V c 2 t : Vec Ideal S4000x128 .f32) x = arrV V c k := by
  obtain ⟨-, -, -, -, e0, e1, -⟩ := idx_facts t
  unfold iblk0
  rw [View.read_apply]
  show arrV V c _ = arrV V c _
  congr 1
  funext a
  apply Fin.ext
  match a with
  | ⟨0, _⟩ => show win0_2.index t (0 : Fin 2) * 4000 + 1 * (x 0).val = (k 0).val; rw [e0, hk0]; omega
  | ⟨1, _⟩ => show win0_2.index t (1 : Fin 2) * 128 + 1 * (x 1).val = (k 1).val; rw [e1, hk1]; omega

/-- The 128 by 8 literal's block at every point is the literal. -/
private theorem iblkG_eq (c : Dev nD) (t : Fin cfg0.N) : (iblk0 V c 3 t : Vec Ideal S128x8 .f32) = arrG V c := by
  obtain ⟨-, -, -, -, -, -, e0, e1, -⟩ := idx_facts t
  funext x
  unfold iblk0
  rw [View.read_apply]
  show arrG V c _ = arrG V c _
  congr 1
  funext a
  apply Fin.ext
  match a with
  | ⟨0, _⟩ => show win0_3.index t (0 : Fin 2) * 128 + 1 * (x 0).val = (x 0).val; rw [e0]; omega
  | ⟨1, _⟩ => show win0_3.index t (1 : Fin 2) * 8 + 1 * (x 1).val = (x 1).val; rw [e1]; omega

/-- The 8 by 128 literal's block at every point is the literal. -/
private theorem iblkGT_eq (c : Dev nD) (t : Fin cfg0.N) : (iblk0 V c 4 t : Vec Ideal S8x128 .f32) = arrGT V c := by
  obtain ⟨-, -, -, -, -, -, -, -, e0, e1, -⟩ := idx_facts t
  funext x
  unfold iblk0
  rw [View.read_apply]
  show arrGT V c _ = arrGT V c _
  congr 1
  funext a
  apply Fin.ext
  match a with
  | ⟨0, _⟩ => show win0_4.index t (0 : Fin 2) * 8 + 1 * (x 0).val = (x 0).val; rw [e0]; omega
  | ⟨1, _⟩ => show win0_4.index t (1 : Fin 2) * 128 + 1 * (x 1).val = (x 1).val; rw [e1]; omega

/-- Block t of a whole array read through the first output's window is its rows 4000 t … 4000 t + 3999. -/
private theorem read_blk5 (G : S800000x128.Idx → EReal) (t : Fin cfg0.N) (x : S4000x128.Idx) (k : S800000x128.Idx)
    (hk0 : (k 0).val = 4000 * t.val + (x 0).val) (hk1 : (k 1).val = (x 1).val) :
    (((cfg0.win 5).blk t).view.read (Elt Ideal) G : Vec Ideal S4000x128 .f32) x = G k := by
  obtain ⟨-, -, -, -, -, -, -, -, -, -, e0, e1, -⟩ := idx_facts t
  rw [View.read_apply]
  show G _ = G _
  congr 1
  funext a
  apply Fin.ext
  match a with
  | ⟨0, _⟩ => show win0_5.index t (0 : Fin 2) * 4000 + 1 * (x 0).val = (k 0).val; rw [e0, hk0]; omega
  | ⟨1, _⟩ => show win0_5.index t (1 : Fin 2) * 128 + 1 * (x 1).val = (k 1).val; rw [e1, hk1]; omega

/-- Block t of a whole array read through the second output's window is its rows 4000 t … 4000 t + 3999. -/
private theorem read_blk6 (G : S800000x128.Idx → EReal) (t : Fin cfg0.N) (x : S4000x128.Idx) (k : S800000x128.Idx)
    (hk0 : (k 0).val = 4000 * t.val + (x 0).val) (hk1 : (k 1).val = (x 1).val) :
    (((cfg0.win 6).blk t).view.read (Elt Ideal) G : Vec Ideal S4000x128 .f32) x = G k := by
  obtain ⟨-, -, -, -, -, -, -, -, -, -, -, -, e0, e1⟩ := idx_facts t
  rw [View.read_apply]
  show G _ = G _
  congr 1
  funext a
  apply Fin.ext
  match a with
  | ⟨0, _⟩ => show win0_6.index t (0 : Fin 2) * 4000 + 1 * (x 0).val = (k 0).val; rw [e0, hk0]; omega
  | ⟨1, _⟩ => show win0_6.index t (1 : Fin 2) * 128 + 1 * (x 1).val = (k 1).val; rw [e1, hk1]; omega

/-- What point t writes back to the second output is block t of the whole arrays' spread scores. -/
private theorem flushed6_eq (c : Dev nD) (t : Fin cfg0.N) :
    (dat0 V c).flushed 6 t
      = ((cfg0.win 6).blk t).view.read (Elt Ideal) (scoreB (arrK V c) (arrQ V c) (arrG V c) (arrGT V c)) := by
  show (cfg0.win 6).cut (grid0.coords t) ((dat0 V c).after 6 t) = _
  rw [after0_6]
  unfold out0_6
  rw [View.canon_unit_zero hz]
  simp only [View.ld_unit_zero (S := S4000x128) hz, View.ld_unit_zero (S := S128x8) hz, View.ld_unit_zero (S := S8x128) hz]
  rw [pay1_eq, iblkG_eq, iblkGT_eq]
  funext j
  obtain ⟨p, q, rfl⟩ : ∃ (p : Fin 4000) (q : Fin 128), j = ix2 p q := ⟨j 0, j 1, eq_ix2 j⟩
  have hp : 4000 * t.val + p.val < 800000 := by
    have ht : t.val < 200 := t.isLt
    omega
  refine (scoreBlk_rows (arrK V c) (arrQ V c) (arrG V c) (arrGT V c) _ _ (4000 * t.val)
    (fun p' l hp' => iblkK_apply V c t (ix2 p' l) (ix2 ⟨4000 * t.val + p'.val, hp'⟩ l) rfl rfl)
    (fun p' l hp' => iblkQ_apply V c t (ix2 p' l) (ix2 ⟨4000 * t.val + p'.val, hp'⟩ l) rfl rfl) p q hp).trans ?_
  exact (read_blk6 _ t (ix2 p q) (ix2 ⟨4000 * t.val + p.val, hp⟩ q) rfl rfl).symm

/-- What point t writes back to the first output is block t of the V rows times the spread scores. -/
private theorem flushed5_eq (c : Dev nD) (t : Fin cfg0.N) :
    (dat0 V c).flushed 5 t
      = ((cfg0.win 5).blk t).view.read (Elt Ideal)
          (fun i => arrV V c i * scoreB (arrK V c) (arrQ V c) (arrG V c) (arrGT V c) i) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x8) hz, View.ld_unit_zero (S := S8x128) hz]
  rw [iblkG_eq, iblkGT_eq]
  funext j
  obtain ⟨p, q, rfl⟩ : ∃ (p : Fin 4000) (q : Fin 128), j = ix2 p q := ⟨j 0, j 1, eq_ix2 j⟩
  have hp : 4000 * t.val + p.val < 800000 := by
    have ht : t.val < 200 := t.isLt
    omega
  refine (pay2_apply _ _ _ _ _ (ix2 p q)).trans ?_
  refine Eq.trans ?_ (read_blk5 _ t (ix2 p q) (ix2 ⟨4000 * t.val + p.val, hp⟩ q) rfl rfl).symm
  beta_reduce
  rw [iblkV_apply V c t (ix2 p q) (ix2 ⟨4000 * t.val + p.val, hp⟩ q) rfl rfl,
    scoreBlk_rows (arrK V c) (arrQ V c) (arrG V c) (arrGT V c) _ _ (4000 * t.val)
      (fun p' l hp' => iblkK_apply V c t (ix2 p' l) (ix2 ⟨4000 * t.val + p'.val, hp'⟩ l) rfl rfl)
      (fun p' l hp' => iblkQ_apply V c t (ix2 p' l) (ix2 ⟨4000 * t.val + p'.val, hp'⟩ l) rfl rfl) p q hp]

/-- An index of the first output's array is in point t's block iff each coordinate is in the block's range. -/
private theorem mem_blk5 (t : Fin cfg0.N) (i : S800000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v28_0).slice (win0_5.rect t)).set ↔ _
  rw [View.set_slice_whole, Rect.mem_set_unit]
  exact Iff.rfl

/-- An index of the second output's array is in point t's block iff each coordinate is in the block's range. -/
private theorem mem_blk6 (t : Fin cfg0.N) (i : S800000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v28_1).slice (win0_6.rect t)).set ↔ _
  rw [View.set_slice_whole, Rect.mem_set_unit]
  exact Iff.rfl

/-- The first output's blocks cover its array: row r is in the block of point r / 4000. -/
private theorem cover5 (i : S800000x128.Idx) :
    ∃ t : Fin cfg0.N, (cfg0.win 5).flush t = true ∧ i ∈ ((cfg0.win 5).blk t).view.set := by
  have hi0 : (i 0).val < 800000 := (i 0).isLt
  have hi1 : (i 1).val < 128 := (i 1).isLt
  have ht : (i 0).val / 4000 < cfg0.N := by show (i 0).val / 4000 < 200; omega
  refine ⟨⟨(i 0).val / 4000, ht⟩, flush0_5 _, ?_⟩
  rw [mem_blk5]
  obtain ⟨-, -, -, -, -, -, -, -, -, -, e0, e1, -⟩ := idx_facts ⟨(i 0).val / 4000, ht⟩
  intro a
  match a with
  | ⟨0, _⟩ =>
    show win0_5.index ⟨(i 0).val / 4000, ht⟩ (0 : Fin 2) * 4000 ≤ (i 0).val
      ∧ (i 0).val < win0_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_5.index ⟨(i 0).val / 4000, ht⟩ (1 : Fin 2) * 128 ≤ (i 1).val
      ∧ (i 1).val < win0_5.index ⟨(i 0).val / 4000, ht⟩ (1 : Fin 2) * 128 + 128
    rw [e1]; omega

/-- The second output's blocks cover its array: row r is in the block of point r / 4000. -/
private theorem cover6 (i : S800000x128.Idx) :
    ∃ t : Fin cfg0.N, (cfg0.win 6).flush t = true ∧ i ∈ ((cfg0.win 6).blk t).view.set := by
  have hi0 : (i 0).val < 800000 := (i 0).isLt
  have hi1 : (i 1).val < 128 := (i 1).isLt
  have ht : (i 0).val / 4000 < cfg0.N := by show (i 0).val / 4000 < 200; omega
  refine ⟨⟨(i 0).val / 4000, ht⟩, flush0_6 _, ?_⟩
  rw [mem_blk6]
  obtain ⟨-, -, -, -, -, -, -, -, -, -, -, -, e0, e1⟩ := idx_facts ⟨(i 0).val / 4000, ht⟩
  intro a
  match a with
  | ⟨0, _⟩ =>
    show win0_6.index ⟨(i 0).val / 4000, ht⟩ (0 : Fin 2) * 4000 ≤ (i 0).val
      ∧ (i 0).val < win0_6.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_6.index ⟨(i 0).val / 4000, ht⟩ (1 : Fin 2) * 128 ≤ (i 1).val
      ∧ (i 1).val < win0_6.index ⟨(i 0).val / 4000, ht⟩ (1 : Fin 2) * 128 + 128
    rw [e1]; omega

/-- The second output array (the spread scores) after the call. -/
theorem final0_6 (c : Dev nD) :
    (dat0 V c).arrAt 6 cfg0.N = scoreB (arrK V c) (arrQ V c) (arrG V c) (arrGT V c) :=
  (dat0 V c).arrAt_eq_of_cover 6 (scoreB (arrK V c) (arrQ V c) (arrG V c) (arrGT V c))
    (fun t _ => flushed6_eq V c t) cover6

/-- The first output array (the messages) after the call. -/
theorem final0_5 (c : Dev nD) :
    (dat0 V c).arrAt 5 cfg0.N
      = fun i => arrV V c i * scoreB (arrK V c) (arrQ V c) (arrG V c) (arrGT V c) i :=
  (dat0 V c).arrAt_eq_of_cover 5 (fun i => arrV V c i * scoreB (arrK V c) (arrQ V c) (arrG V c) (arrGT V c) i)
    (fun t _ => flushed5_eq V c t) cover5

end Cert.KernelIdeal.Region0

end
-- ==== Proof.KRegion1.lean ====
/-
  The second call's output array as one function of the arrays the call finds: it walks the N nodes in 10 blocks of
  5000 rows and stores, element by element, the first array over the second plus ε.
-/
import proofs.«164880_j36404142800928_1_alg».proof.Proof.Gen.KernelIdeal.Frame
import proofs.«164880_j36404142800928_1_alg».proof.Proof.Spec
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat Cfg)
open Cert.KernelIdeal Cert.KernelIdeal.Gen

variable (V : (c : Dev nD) → (b : Ref sig .tc) → Buf (Elt Ideal) ((c : Thread nD τ).loc b))

/-- The two arrays the call finds, each named at its literal type: the accumulated messages and the accumulated scores. -/
abbrev arrW (c : Dev nD) : S50000x128.Idx → EReal := V c main_v31
abbrev arrZ (c : Dev nD) : S50000x128.Idx → EReal := V c main_v34

/-- The zero offsets of a whole-block access, however they are spelt. -/
private theorem hz : (![0, 0] : Fin 2 → Nat) = fun _ => 0 := funext fun a => by fin_cases a <;> rfl

/-- The quotient, element by element, over a whole array: the first over the second plus ε. -/
private abbrev quot (a0 a1 : S50000x128.Idx → EReal) : S50000x128.Idx → EReal :=
  fun i => Ideal.div (a0 i) (a1 i + Cert.Attn.ceps)

/-- What the body stores, at an index of the block: the same quotient of the two loaded blocks. -/
private theorem pay_apply (x0 x1 : Vec Ideal S5000x128 .f32) (j : S5000x128.Idx) :
    k1_pay1 x0 x1 j = Ideal.div (x0 j) (x1 j + Cert.Attn.ceps) := by
  unfold k1_pay1
  simp only [shapeCast_self]
  rfl

/-- The index maps over the 10 points: both inputs' blocks move with the output's, which is block (t, 0). -/
private theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = t.val ∧ win1_2.index t (1 : Fin 2) = 0 :=
  (by decide +kernel : ∀ t : Fin grid1.N, _)

/-- What point t writes back is block t of the quotient of the two arrays. -/
private theorem flushed_eq (c : Dev nD) (t : Fin cfg1.N) :
    (dat1 V c).flushed 2 t = ((cfg1.win 2).blk t).view.read (Elt Ideal) (quot (arrW V c) (arrZ V c)) := by
  show (cfg1.win 2).cut (grid1.coords t) ((dat1 V c).after 2 t) = _
  rw [after1_2]
  unfold out1_2
  rw [View.canon_unit_zero hz]
  simp only [View.ld_unit_zero (S := S5000x128) hz]
  obtain ⟨e0, e1, e2, e3, e4, e5⟩ := idx_facts t
  funext j
  refine (pay_apply _ _ j).trans ?_
  show Ideal.div (arrW V c (((cfg1.win 0).blk t).view.emb j)) (arrZ V c (((cfg1.win 1).blk t).view.emb j) + Cert.Attn.ceps)
    = Ideal.div (arrW V c (((cfg1.win 2).blk t).view.emb j)) (arrZ V c (((cfg1.win 2).blk t).view.emb j) + Cert.Attn.ceps)
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 128 + 1 * (j 1).val = win1_2.index t (1 : Fin 2) * 128 + 1 * (j 1).val; omega
  rw [h0, h1]

/-- An index of the array is in point t's block iff each coordinate is in the block's range on its axis. -/
private theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v35).slice (win1_2.rect t)).set ↔ _
  rw [View.set_slice_whole, Rect.mem_set_unit]
  exact Iff.rfl

/-- The blocks cover the array: row r is in the block of point r / 5000. -/
private theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have ht : (i 0).val / 5000 < cfg1.N := by show (i 0).val / 5000 < 10; omega
  refine ⟨⟨(i 0).val / 5000, ht⟩, flush1_2 _, ?_⟩
  rw [mem_blk]
  obtain ⟨-, -, -, -, e4, e5⟩ := idx_facts ⟨(i 0).val / 5000, ht⟩
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e5]; omega

/-- The output array after the call. -/
theorem final1_2 (c : Dev nD) :
    (dat1 V c).arrAt 2 cfg1.N = fun i => Ideal.div (arrW V c i) (arrZ V c i + Cert.Attn.ceps) :=
  (dat1 V c).arrAt_eq_of_cover 2 (quot (arrW V c) (arrZ V c)) (fun t _ => flushed_eq V c t) cover

end Cert.KernelIdeal.Region1

end
-- ==== Proof.LibGroup.lean ====
/-
  Sums against a 0/1 grouping of 128 lanes into 8 heads of 16, and the constants' values.

  On the extended reals x · 0 = 0 and x · 1 = x for every x, infinities included, and a sum may be reordered, so summing
  p l · g l over the lanes, g the indicator of head h, leaves the head's sixteen terms; summing s h · g h over the heads,
  g the indicator of lane l's head, leaves that head's term. No operand need be finite.
-/
import proofs.«164880_j36404142800928_1_alg».proof.Proof.Spec
import Idealize.ShloMosaic.PureOps.Ideal.Laws

noncomputable section

namespace Cert.Attn

open Idealize.ShloMosaic Idealize.ShloMosaic.ValueIdx

/-- Against the indicator of head `h`, the sum over the 128 lanes is the sum over the head's 16 lanes. -/
theorem sum_group (p g : Fin 128 → EReal) (h : Fin 8)
    (hg : ∀ l : Fin 128, g l = if l.val / 16 = h.val then 1 else 0) :
    ∑ l : Fin 128, p l * g l = ∑ d : Fin 16, p (lane h d) := by
  -- each term is p l on head h's lanes and 0 off them, so the sum is the sum over the lanes with l / 16 = h
  have term : ∀ l : Fin 128, p l * g l = if l.val / 16 = h.val then p l else 0 := by
    intro l; rw [hg l, mul_ite, mul_one, mul_zero]
  rw [Finset.sum_congr rfl (fun l _ => term l), ← Finset.sum_filter]
  symm
  -- d ↦ 16 h + d maps the sixteen offsets one-to-one onto those lanes; the lane l comes from the offset l mod 16
  refine Finset.sum_bij (fun d _ => lane h d) ?_ ?_ ?_ ?_
  · intro d _
    simp only [Finset.mem_filter, Finset.mem_univ, true_and]
    exact congrArg Fin.val (headOf_lane h d)
  · intro d₁ _ d₂ _ he
    have hv := congrArg Fin.val he
    simp only [lane] at hv
    exact Fin.ext (by omega)
  · intro l hl
    simp only [Finset.mem_filter, Finset.mem_univ, true_and] at hl
    refine ⟨⟨l.val % 16, Nat.mod_lt _ (by norm_num)⟩, Finset.mem_univ _, ?_⟩
    apply Fin.ext
    simp only [lane]
    omega
  · intro d _; rfl

/-- Against the indicator of lane `l`'s head, the sum over the 8 heads is that head's term. -/
theorem sum_pick (s g : Fin 8 → EReal) (l : Fin 128)
    (hg : ∀ h : Fin 8, g h = if l.val / 16 = h.val then 1 else 0) :
    ∑ h : Fin 8, s h * g h = s (headOf l) := by
  -- each term is s h at the one head h = l / 16 and 0 at the seven others
  have term : ∀ h : Fin 8, s h * g h = if headOf l = h then s h else 0 := by
    intro h
    rw [hg h, mul_ite, mul_one, mul_zero]
    have cond : (l.val / 16 = h.val) ↔ (headOf l = h) :=
      ⟨fun e => Fin.ext e, fun e => congrArg Fin.val e⟩
    simp only [cond]
  rw [Finset.sum_congr rfl (fun h _ => term h), Finset.sum_ite_eq]
  simp

/-- A 32-bit pattern with clear sign bit, exponent field `E` neither 0 nor 255 and fraction field `F` denotes
    (2²³ + F) · 2^(E − 150). -/
private theorem f32_normal_pos (b : BitVec 32) (E F : ℕ)
    (hs : (b.extractLsb' (8 + 23) 1 == 1#1) = false)
    (he : (b.extractLsb' 23 8).toNat = E) (hf : (b.extractLsb' 0 23).toNat = F)
    (h1 : E ≠ 2 ^ 8 - 1) (h0 : E ≠ 0) :
    Ideal.ofBits .f32 b = (((2 ^ 23 + F : ℕ) * (2 : ℝ) ^ ((E : ℤ) - 150) : ℝ) : EReal) := by
  simp only [Ideal.ofBits, Ideal.ieee, hs, he, hf, if_neg h1, if_neg h0, Bool.false_eq_true, if_false, one_mul]
  norm_num [sub_sub]

/-- The pattern of 1.0 is one: exponent field 127, fraction 0, so 2²³ · 2⁻²³. -/
theorem ofBits_one : Ideal.ofBits .f32 0x3F800000#32 = (1 : EReal) := by
  rw [f32_normal_pos _ 127 0 (by decide) (by decide) (by decide) (by norm_num) (by norm_num), ← EReal.coe_one]
  congr 1
  norm_num

/-- The pattern of +0.0 is zero. -/
theorem ofBits_zero : Ideal.ofBits .f32 0x00000000#32 = (0 : EReal) := Ideal.ofBits_zero_f32

/-- The pattern of 4.0 is four: exponent field 129, fraction 0, so 2²³ · 2⁻²¹. -/
private theorem ofBits_four : Ideal.ofBits .f32 0x40800000#32 = ((4 : ℝ) : EReal) := by
  rw [f32_normal_pos _ 129 0 (by decide) (by decide) (by decide) (by norm_num) (by norm_num)]
  congr 1
  norm_num

/-- The pattern of 0.25 is a quarter: exponent field 125, fraction 0, so 2²³ · 2⁻²⁵. -/
private theorem ofBits_quarter : Ideal.ofBits .f32 0x3E800000#32 = ((1 / 4 : ℝ) : EReal) := by
  rw [f32_normal_pos _ 125 0 (by decide) (by decide) (by decide) (by norm_num) (by norm_num)]
  congr 1
  norm_num

/-- Times the pattern of 0.25 is over the pattern of 4.0, on every extended real. -/
theorem quarter (x : EReal) : x * Ideal.ofBits .f32 0x3E800000#32 = Ideal.div x c4 := by
  -- dividing by the nonzero real 4 is multiplying by the real 1/4, at the infinities too
  rw [show c4 = ((4 : ℝ) : EReal) from ofBits_four, Ideal.div_coe (by norm_num) x, ofBits_quarter]

end Cert.Attn

end
-- ==== Proof.KTables.lean ====
/-
  The two grouping matrices the kernel carries as literals: entry (l, h) of the 128 by 8 one, and entry (h, l) of its
  transpose, is one when lane l belongs to head h (l / 16 = h) and zero otherwise.
-/
import proofs.«164880_j36404142800928_1_alg».proof.Proof.Gen.KernelIdeal
import proofs.«164880_j36404142800928_1_alg».proof.Proof.LibGroup

noncomputable section

namespace Cert.KernelIdeal.Tables

open Idealize.ShloMosaic Idealize.ShloMosaic.TcCoe Idealize.SL.Sem Idealize.ShloMosaic.ValueIdx
open Cert.KernelIdeal

/-- The lanes-by-heads literal, word by word: position i is row i / 8, column i mod 8, and holds the pattern of 1.0
    when the row's head (i / 8) / 16 is the column, the pattern of +0.0 otherwise. All 1024 positions are evaluated. -/
private theorem lit0_word : ∀ i : Fin 1024,
    lit0 i = if (i.val / 8) / 16 = i.val % 8 then 0x3F800000#32 else 0x00000000#32 := by
  decide +kernel

/-- The heads-by-lanes literal, word by word: position i is row i / 128, column i mod 128, and holds the pattern of
    1.0 when the column's head (i mod 128) / 16 is the row, the pattern of +0.0 otherwise. -/
private theorem lit1_word : ∀ i : Fin 1024,
    lit1 i = if (i.val % 128) / 16 = i.val / 128 then 0x3F800000#32 else 0x00000000#32 := by
  decide +kernel

/-- A word that is the pattern of 1.0 or of +0.0 by a condition denotes 1 or 0 by that condition. -/
private theorem ofBits_pick (c : Prop) [Decidable c] :
    Ideal.ofBits .f32 (if c then 0x3F800000#32 else 0x00000000#32) = (if c then 1 else 0 : EReal) := by
  by_cases hc : c
  · rw [if_pos hc, if_pos hc]; exact Cert.Attn.ofBits_one
  · rw [if_neg hc, if_neg hc]; exact Cert.Attn.ofBits_zero

/-- The lanes-by-heads literal at the position 8 l + h of entry (l, h): that position's row is l and its column is h. -/
private theorem lit0_at (i : Fin 1024) (l : Fin 128) (h : Fin 8) (hi : i.val = l.val * 8 + h.val) :
    Ideal.ofBits .f32 (lit0 i) = (if l.val / 16 = h.val then 1 else 0 : EReal) := by
  have row : i.val / 8 = l.val := by rw [hi]; have := h.isLt; omega
  have col : i.val % 8 = h.val := by rw [hi]; have := h.isLt; omega
  rw [lit0_word, ofBits_pick, row, col]

/-- The heads-by-lanes literal at the position 128 h + l of entry (h, l): that position's row is h, its column l. -/
private theorem lit1_at (i : Fin 1024) (h : Fin 8) (l : Fin 128) (hi : i.val = h.val * 128 + l.val) :
    Ideal.ofBits .f32 (lit1 i) = (if l.val / 16 = h.val then 1 else 0 : EReal) := by
  have row : i.val / 128 = h.val := by rw [hi]; have := l.isLt; omega
  have col : i.val % 128 = l.val := by rw [hi]; have := l.isLt; omega
  rw [lit1_word, ofBits_pick, row, col]

/-- Entry (l, h) of the lanes-by-heads literal. -/
theorem groupTable (l : Fin 128) (h : Fin 8) :
    Ideal.ofBits .f32 (lit0 (S128x8.rowMajor (ix2 l h))) = (if l.val / 16 = h.val then 1 else 0 : EReal) :=
  -- row-major, entry (l, h) of a table with rows of 8 sits at position 8 l + h
  lit0_at _ l h (Shape.rowMajor_val_two _)

/-- Entry (h, l) of the heads-by-lanes literal. -/
theorem groupTableT (h : Fin 8) (l : Fin 128) :
    Ideal.ofBits .f32 (lit1 (S8x128.rowMajor (ix2 h l))) = (if l.val / 16 = h.val then 1 else 0 : EReal) :=
  -- row-major, entry (h, l) of a table with rows of 128 sits at position 128 h + l
  lit1_at _ h l (Shape.rowMajor_val_two _)

end Cert.KernelIdeal.Tables

end
-- ==== Proof.LibRowGather.lean ====
/-
  Whole rows gathered from a table, read at one element.

  A table of N rows (each row a vector of L lanes, or a matrix of H by D); E start words in a column. For ANY record of
  dimension numbers of that shape — the row axis collapsed, the other axes offset axes in order, the one start component
  mapped to the row axis — the gather's element (e, rest) is the table's element (row, rest), the row the start word
  read signed and clamped into [0, N - 1].
-/
import Idealize.ShloMosaic.PureOps.Ideal
import Idealize.ShloMosaic.PureOps.Ideal.Laws
import Idealize.ShloMosaic.Lib.ValueIdx

noncomputable section

namespace Cert.Rows

open Idealize.ShloMosaic Idealize.ShloMosaic.ValueIdx

/-- Rows of lanes: the gather's element (e, l) is the table's (row e, l). -/
theorem gather_rows2 {α : Type} {N E L w : Nat} (hN : 0 < N)
    (d : GatherDims ⟨2, ![N, L]⟩ ⟨2, ![E, 1]⟩ ⟨2, ![E, L]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, L])
    (x : (⟨2, ![N, L]⟩ : Shape).Idx → α) (idx : IVec ⟨2, ![E, 1]⟩ w) (e : Fin E) (l : Fin L) :
    Host.gather d x idx (ix2 e l)
      = x (ix2 (⟨min (idx (ix2 e (0 : Fin 1))).toInt.toNat (N - 1), by omega⟩ : Fin N) l) := by
  obtain ⟨od, cd, ob, sb, sm, iv, ss, wf⟩ := d
  dsimp only at h1 h2 h3 h4 h5 h6 h7
  subst h1 h2 h3 h4 h5 h6 h7
  generalize hd : (⟨[1], [0], [], [], [0], 1, ![1, L], wf⟩ : GatherDims ⟨2, ![N, L]⟩ ⟨2, ![E, 1]⟩ ⟨2, ![E, L]⟩) = d
  have hcd : d.collapsedSliceDims = [0] := by subst hd; rfl
  have hob : d.operandBatchingDims = [] := by subst hd; rfl
  have hsm : d.startIndexMap = [0] := by subst hd; rfl
  unfold Host.gather
  congr 1
  funext a
  refine Fin.ext ?_
  show d.start (ix2 e l) idx a + d.batchCoord (ix2 e l) a + d.offCoord (ix2 e l) a = _
  rw [GatherDims.batchCoord_eq_zero _ _ _ (by rw [hob]; exact List.not_mem_nil), Nat.add_zero]
  match a with
  | ⟨0, _⟩ =>
    -- the row axis: collapsed, so no offset; its start is the clamped start word
    rw [GatherDims.offCoord_eq_zero _ _ _ (fun h => ((GatherDims.mem_sKept _ _).mp h).1 (by rw [hcd]; exact List.mem_singleton.mpr rfl)),
      Nat.add_zero]
    unfold GatherDims.start
    have hm : (⟨0, by decide⟩ : Fin 2) ∈ d.startIndexMap := by rw [hsm]; exact List.mem_singleton.mpr rfl
    rw [dif_pos hm]
    have hsi : d.siIdx (ix2 e l) ⟨List.idxOf (⟨0, by decide⟩ : Fin 2) d.startIndexMap,
        List.idxOf_lt_length_iff.2 hm⟩ = ix2 e (0 : Fin 1) := by
      subst hd
      funext b; refine Fin.ext ?_
      match b with
      | ⟨0, _⟩ => rfl
      | ⟨1, _⟩ => rfl
    rw [hsi]
    subst hd
    rfl
  | ⟨1, _⟩ =>
    -- the lane axis: start 0, the offset is the result's coordinate on axis 1
    have hne : (⟨1, by decide⟩ : Fin 2) ∉ ([0] : List (Fin 2)) :=
      fun h => Nat.one_ne_zero (congrArg Fin.val (List.mem_singleton.mp h))
    have hnm : (⟨1, by decide⟩ : Fin 2) ∉ d.startIndexMap := by rw [hsm]; exact hne
    have hk : (⟨1, by decide⟩ : Fin 2) ∈ d.sKept :=
      (GatherDims.mem_sKept _ _).mpr ⟨by rw [hcd]; exact hne, by rw [hob]; exact List.not_mem_nil⟩
    unfold GatherDims.start
    rw [dif_neg hnm, Nat.zero_add]
    unfold GatherDims.offCoord
    rw [dif_pos hk]
    subst hd
    rfl

/-- Rows of H by D matrices: the gather's element (e, h, k) is the table's (row e, h, k). -/
theorem gather_rows3 {α : Type} {N E H D w : Nat} (hN : 0 < N)
    (d : GatherDims ⟨3, ![N, H, D]⟩ ⟨2, ![E, 1]⟩ ⟨3, ![E, H, D]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, H, D])
    (x : (⟨3, ![N, H, D]⟩ : Shape).Idx → α) (idx : IVec ⟨2, ![E, 1]⟩ w) (e : Fin E) (h : Fin H) (k : Fin D) :
    Host.gather d x idx (ix3 e h k)
      = x (ix3 (⟨min (idx (ix2 e (0 : Fin 1))).toInt.toNat (N - 1), by omega⟩ : Fin N) h k) := by
  obtain ⟨od, cd, ob, sb, sm, iv, ss, wf⟩ := d
  dsimp only at h1 h2 h3 h4 h5 h6 h7
  subst h1 h2 h3 h4 h5 h6 h7
  generalize hd : (⟨[1, 2], [0], [], [], [0], 1, ![1, H, D], wf⟩ :
    GatherDims ⟨3, ![N, H, D]⟩ ⟨2, ![E, 1]⟩ ⟨3, ![E, H, D]⟩) = d
  have hcd : d.collapsedSliceDims = [0] := by subst hd; rfl
  have hob : d.operandBatchingDims = [] := by subst hd; rfl
  have hsm : d.startIndexMap = [0] := by subst hd; rfl
  -- an axis other than the row axis is not in the list [0]
  have hne : ∀ (a : Fin 3), a.val ≠ 0 → a ∉ ([0] : List (Fin 3)) :=
    fun a ha hm => ha (congrArg Fin.val (List.mem_singleton.mp hm))
  unfold Host.gather
  congr 1
  funext a
  refine Fin.ext ?_
  show d.start (ix3 e h k) idx a + d.batchCoord (ix3 e h k) a + d.offCoord (ix3 e h k) a = _
  rw [GatherDims.batchCoord_eq_zero _ _ _ (by rw [hob]; exact List.not_mem_nil), Nat.add_zero]
  match a with
  | ⟨0, _⟩ =>
    -- the row axis: collapsed, so no offset; its start is the clamped start word
    rw [GatherDims.offCoord_eq_zero _ _ _ (fun hm => ((GatherDims.mem_sKept _ _).mp hm).1 (by rw [hcd]; exact List.mem_singleton.mpr rfl)),
      Nat.add_zero]
    unfold GatherDims.start
    have hm : (⟨0, by decide⟩ : Fin 3) ∈ d.startIndexMap := by rw [hsm]; exact List.mem_singleton.mpr rfl
    rw [dif_pos hm]
    have hsi : d.siIdx (ix3 e h k) ⟨List.idxOf (⟨0, by decide⟩ : Fin 3) d.startIndexMap,
        List.idxOf_lt_length_iff.2 hm⟩ = ix2 e (0 : Fin 1) := by
      subst hd
      funext b; refine Fin.ext ?_
      match b with
      | ⟨0, _⟩ => rfl
      | ⟨1, _⟩ => rfl
    rw [hsi]
    subst hd
    rfl
  | ⟨1, _⟩ =>
    -- the first offset axis: start 0, the offset is the result's coordinate on axis 1
    have hnm : (⟨1, by decide⟩ : Fin 3) ∉ d.startIndexMap := by rw [hsm]; exact hne _ Nat.one_ne_zero
    have hk : (⟨1, by decide⟩ : Fin 3) ∈ d.sKept :=
      (GatherDims.mem_sKept _ _).mpr ⟨by rw [hcd]; exact hne _ Nat.one_ne_zero, by rw [hob]; exact List.not_mem_nil⟩
    unfold GatherDims.start
    rw [dif_neg hnm, Nat.zero_add]
    unfold GatherDims.offCoord
    rw [dif_pos hk]
    subst hd
    rfl
  | ⟨2, _⟩ =>
    -- the second offset axis: start 0, the offset is the result's coordinate on axis 2
    have hnm : (⟨2, by decide⟩ : Fin 3) ∉ d.startIndexMap := by rw [hsm]; exact hne _ (by decide)
    have hk : (⟨2, by decide⟩ : Fin 3) ∈ d.sKept :=
      (GatherDims.mem_sKept _ _).mpr ⟨by rw [hcd]; exact hne _ (by decide), by rw [hob]; exact List.not_mem_nil⟩
    unfold GatherDims.start
    rw [dif_neg hnm, Nat.zero_add]
    unfold GatherDims.offCoord
    rw [dif_pos hk]
    subst hd
    rfl

end Cert.Rows

end
-- ==== Proof.LibRowScatter.lean ====
/-
  Whole rows added into a table, read at one element.

  A table of N rows (each row a vector of L lanes, or a matrix of H by D); E start words in a column. For ANY record of
  dimension numbers of that shape — the row axis inserted, the other axes window axes in order, the one start component
  mapped to the row axis — over the extended reals the accumulating scatter's element (n, rest) is the operand's plus the
  sum, over the edges whose start word read signed and NOT clamped is n, of the update's element (e, rest).
-/
import Idealize.ShloMosaic.PureOps.Ideal
import Idealize.ShloMosaic.PureOps.Ideal.Laws
import Idealize.ShloMosaic.Lib.ValueIdx

noncomputable section

namespace Cert.Rows

open Idealize.ShloMosaic Idealize.ShloMosaic.ValueIdx

/-- An update index lands on operand index `i` exactly when, on every axis, its start plus its window coordinate is
    `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + d.window j a = ((i a).val : ℤ) := by
  unfold ScatterDims.resultIdx?
  constructor
  · intro h
    by_cases hr : ∀ a, 0 ≤ d.start j idx a + d.window j a ∧ d.start j idx a + d.window j a < s.size a
    · rw [dif_pos hr] at h
      have hf := Option.some.inj h
      intro a
      have ha : (d.start j idx a + d.window j a).toNat = (i a).val := congrArg (fun f => (f a).val) hf
      have := (hr a).1
      omega
    · rw [dif_neg hr] at h
      exact absurd h (by simp)
  · intro h
    have hr : ∀ a, 0 ≤ d.start j idx a + d.window j a ∧ d.start j idx a + d.window j a < s.size a := by
      intro a
      rw [h a]
      exact ⟨Int.natCast_nonneg _, by exact_mod_cast (i a).isLt⟩
    rw [dif_pos hr]
    refine congrArg some ?_
    funext a
    refine Fin.ext ?_
    show (d.start j idx a + d.window j a).toNat = (i a).val
    rw [h a]
    exact Int.toNat_natCast _

/-- Rows of lanes: the start on the row axis is the edge's start word read signed, the start on the lane axis is
    zero; the window coordinate on the row axis is zero, on the lane axis the update's lane. -/
private theorem coords2 {N E L w : Nat}
    (d : ScatterDims ⟨2, ![N, L]⟩ ⟨2, ![E, 1]⟩ ⟨2, ![E, L]⟩)
    (h1 : d.updateWindowDims = [1]) (h2 : d.insertedWindowDims = [0]) (h3 : d.scatterDimsToOperandDims = [0])
    (h4 : d.indexVectorDim = 1) (idx : IVec ⟨2, ![E, 1]⟩ w) (e : Fin E) (l' : Fin L) :
    d.start (ix2 e l') idx 0 = (idx (ix2 e (0 : Fin 1))).toInt ∧ d.start (ix2 e l') idx 1 = 0 ∧
      d.window (ix2 e l') 0 = 0 ∧ d.window (ix2 e l') 1 = l'.val := by
  obtain ⟨uw, iw, sd, iv, wf⟩ := d
  dsimp only at h1 h2 h3 h4
  subst h1 h2 h3 h4
  refine ⟨?_, ?_, ?_, ?_⟩
  · unfold ScatterDims.start
    rw [dif_pos (show (0 : Fin 2) ∈ ([0] : List (Fin 2)) from List.mem_singleton.mpr rfl)]
    refine congrArg (fun q => (idx q).toInt) ?_
    funext b; refine Fin.ext ?_
    match b with
    | ⟨0, _⟩ => rfl
    | ⟨1, _⟩ => rfl
  · unfold ScatterDims.start
    rw [dif_neg (show ¬ (1 : Fin 2) ∈ ([0] : List (Fin 2)) by decide)]
  · unfold ScatterDims.window
    rw [dif_neg (show ¬ (0 : Fin 2) ∈ Shape.kept ⟨2, ![N, L]⟩ ([0] : List (Fin 2)) from
      fun h => absurd (List.mem_filter.1 h).2 (by decide : ¬ decide ((0 : Fin 2) ∉ ([0] : List (Fin 2))) = true))]
  · unfold ScatterDims.window
    rw [dif_pos (show (1 : Fin 2) ∈ Shape.kept ⟨2, ![N, L]⟩ ([0] : List (Fin 2)) from
      List.mem_filter.2 ⟨List.mem_finRange _, (by decide : decide ((1 : Fin 2) ∉ ([0] : List (Fin 2))) = true)⟩)]
    rfl

/-- Rows of lanes: the update element (e, l') lands on (n, l) exactly when the edge's start word, read signed, is n and
    the lanes agree. -/
private theorem lands2 {N E L w : Nat}
    (d : ScatterDims ⟨2, ![N, L]⟩ ⟨2, ![E, 1]⟩ ⟨2, ![E, L]⟩)
    (h1 : d.updateWindowDims = [1]) (h2 : d.insertedWindowDims = [0]) (h3 : d.scatterDimsToOperandDims = [0])
    (h4 : d.indexVectorDim = 1) (idx : IVec ⟨2, ![E, 1]⟩ w) (e : Fin E) (l' : Fin L) (n : Fin N) (l : Fin L) :
    d.resultIdx? (ix2 e l') idx = some (ix2 n l) ↔ ((idx (ix2 e (0 : Fin 1))).toInt = (n.val : ℤ) ∧ l' = l) := by
  obtain ⟨s0, s1, w0, w1⟩ := coords2 d h1 h2 h3 h4 idx e l'
  rw [resultIdx?_eq_some_iff]
  constructor
  · intro hh
    have a0 : d.start (ix2 e l') idx 0 + ((d.window (ix2 e l') 0 : ℕ) : ℤ) = (n.val : ℤ) := hh 0
    have a1 : d.start (ix2 e l') idx 1 + ((d.window (ix2 e l') 1 : ℕ) : ℤ) = (l.val : ℤ) := hh 1
    rw [s0, w0, Nat.cast_zero, add_zero] at a0
    rw [s1, w1, zero_add] at a1
    exact ⟨a0, Fin.ext (by omega)⟩
  · rintro ⟨hc, rfl⟩ a
    match a with
    | ⟨0, _⟩ =>
      have a0 : d.start (ix2 e l') idx 0 + ((d.window (ix2 e l') 0 : ℕ) : ℤ) = (n.val : ℤ) := by
        rw [s0, w0, Nat.cast_zero, add_zero, hc]
      exact a0
    | ⟨1, _⟩ =>
      have a1 : d.start (ix2 e l') idx 1 + ((d.window (ix2 e l') 1 : ℕ) : ℤ) = (l'.val : ℤ) := by
        rw [s1, w1, zero_add]
      exact a1

/-- Rows of lanes: the accumulation's element (n, l). -/
theorem scatterAdd_rows2 {N E L w : Nat}
    (d : ScatterDims ⟨2, ![N, L]⟩ ⟨2, ![E, 1]⟩ ⟨2, ![E, L]⟩)
    (h1 : d.updateWindowDims = [1]) (h2 : d.insertedWindowDims = [0]) (h3 : d.scatterDimsToOperandDims = [0])
    (h4 : d.indexVectorDim = 1)
    (x : (⟨2, ![N, L]⟩ : Shape).Idx → EReal) (idx : IVec ⟨2, ![E, 1]⟩ w) (upd : (⟨2, ![E, L]⟩ : Shape).Idx → EReal)
    (n : Fin N) (l : Fin L) :
    Ideal.hostScatterAdd d x idx upd (ix2 n l)
      = x (ix2 n l) + ∑ e : Fin E, if (idx (ix2 e (0 : Fin 1))).toInt = (n.val : ℤ) then upd (ix2 e l) else 0 := by
  have key := fun e l' => lands2 d h1 h2 h3 h4 idx e l' n l
  unfold Ideal.hostScatterAdd
  refine congrArg (x (ix2 n l) + ·) ?_
  rw [Finset.sum_filter, sum_idx2]
  refine Finset.sum_congr rfl (fun e _ => ?_)
  by_cases hc : (idx (ix2 e (0 : Fin 1))).toInt = (n.val : ℤ)
  · rw [if_pos hc, Finset.sum_eq_single l]
    · rw [if_pos ((key e l).2 ⟨hc, rfl⟩)]
    · intro l' _ hne
      rw [if_neg (fun hh => hne ((key e l').1 hh).2)]
    · intro hh
      exact absurd (Finset.mem_univ l) hh
  · rw [if_neg hc]
    refine Finset.sum_eq_zero (fun l' _ => ?_)
    rw [if_neg (fun hh => hc ((key e l').1 hh).1)]

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl (fun a _ => ?_)
  rw [Fintype.sum_prod_type]
  rfl

/-- Rows of matrices: the start on the row axis is the edge's start word read signed, the starts on the two matrix axes
    are zero; the window coordinate on the row axis is zero, on the matrix axes the update's two matrix coordinates. -/
private theorem coords3 {N E H D w : Nat}
    (d : ScatterDims ⟨3, ![N, H, D]⟩ ⟨2, ![E, 1]⟩ ⟨3, ![E, H, D]⟩)
    (h1 : d.updateWindowDims = [1, 2]) (h2 : d.insertedWindowDims = [0]) (h3 : d.scatterDimsToOperandDims = [0])
    (h4 : d.indexVectorDim = 1) (idx : IVec ⟨2, ![E, 1]⟩ w) (e : Fin E) (h' : Fin H) (k' : Fin D) :
    (d.start (ix3 e h' k') idx 0 = (idx (ix2 e (0 : Fin 1))).toInt ∧ d.start (ix3 e h' k') idx 1 = 0 ∧
      d.start (ix3 e h' k') idx 2 = 0) ∧
      d.window (ix3 e h' k') 0 = 0 ∧ d.window (ix3 e h' k') 1 = h'.val ∧ d.window (ix3 e h' k') 2 = k'.val := by
  obtain ⟨uw, iw, sd, iv, wf⟩ := d
  dsimp only at h1 h2 h3 h4
  subst h1 h2 h3 h4
  refine ⟨⟨?_, ?_, ?_⟩, ?_, ?_, ?_⟩
  · unfold ScatterDims.start
    rw [dif_pos (show (0 : Fin 3) ∈ ([0] : List (Fin 3)) from List.mem_singleton.mpr rfl)]
    refine congrArg (fun q => (idx q).toInt) ?_
    funext b; refine Fin.ext ?_
    match b with
    | ⟨0, _⟩ => rfl
    | ⟨1, _⟩ => rfl
  · unfold ScatterDims.start
    rw [dif_neg (show ¬ (1 : Fin 3) ∈ ([0] : List (Fin 3)) by decide)]
  · unfold ScatterDims.start
    rw [dif_neg (show ¬ (2 : Fin 3) ∈ ([0] : List (Fin 3)) by decide)]
  · unfold ScatterDims.window
    rw [dif_neg (show ¬ (0 : Fin 3) ∈ Shape.kept ⟨3, ![N, H, D]⟩ ([0] : List (Fin 3)) from
      fun h => absurd (List.mem_filter.1 h).2 (by decide : ¬ decide ((0 : Fin 3) ∉ ([0] : List (Fin 3))) = true))]
  · unfold ScatterDims.window
    rw [dif_pos (show (1 : Fin 3) ∈ Shape.kept ⟨3, ![N, H, D]⟩ ([0] : List (Fin 3)) from
      List.mem_filter.2 ⟨List.mem_finRange _, (by decide : decide ((1 : Fin 3) ∉ ([0] : List (Fin 3))) = true)⟩)]
    rfl
  · unfold ScatterDims.window
    rw [dif_pos (show (2 : Fin 3) ∈ Shape.kept ⟨3, ![N, H, D]⟩ ([0] : List (Fin 3)) from
      List.mem_filter.2 ⟨List.mem_finRange _, (by decide : decide ((2 : Fin 3) ∉ ([0] : List (Fin 3))) = true)⟩)]
    rfl

/-- Rows of matrices: the update element (e, h', k') lands on (n, h, k) exactly when the edge's start word, read signed,
    is n and the matrix coordinates agree. -/
private theorem lands3 {N E H D w : Nat}
    (d : ScatterDims ⟨3, ![N, H, D]⟩ ⟨2, ![E, 1]⟩ ⟨3, ![E, H, D]⟩)
    (h1 : d.updateWindowDims = [1, 2]) (h2 : d.insertedWindowDims = [0]) (h3 : d.scatterDimsToOperandDims = [0])
    (h4 : d.indexVectorDim = 1) (idx : IVec ⟨2, ![E, 1]⟩ w) (e : Fin E) (h' : Fin H) (k' : Fin D)
    (n : Fin N) (h : Fin H) (k : Fin D) :
    d.resultIdx? (ix3 e h' k') idx = some (ix3 n h k) ↔
      ((idx (ix2 e (0 : Fin 1))).toInt = (n.val : ℤ) ∧ h' = h ∧ k' = k) := by
  obtain ⟨⟨s0, s1, s2⟩, w0, w1, w2⟩ := coords3 d h1 h2 h3 h4 idx e h' k'
  rw [resultIdx?_eq_some_iff]
  constructor
  · intro hh
    have a0 : d.start (ix3 e h' k') idx 0 + ((d.window (ix3 e h' k') 0 : ℕ) : ℤ) = (n.val : ℤ) := hh 0
    have a1 : d.start (ix3 e h' k') idx 1 + ((d.window (ix3 e h' k') 1 : ℕ) : ℤ) = (h.val : ℤ) := hh 1
    have a2 : d.start (ix3 e h' k') idx 2 + ((d.window (ix3 e h' k') 2 : ℕ) : ℤ) = (k.val : ℤ) := hh 2
    rw [s0, w0, Nat.cast_zero, add_zero] at a0
    rw [s1, w1, zero_add] at a1
    rw [s2, w2, zero_add] at a2
    exact ⟨a0, Fin.ext (by omega), Fin.ext (by omega)⟩
  · rintro ⟨hc, rfl, rfl⟩ a
    match a with
    | ⟨0, _⟩ =>
      have a0 : d.start (ix3 e h' k') idx 0 + ((d.window (ix3 e h' k') 0 : ℕ) : ℤ) = (n.val : ℤ) := by
        rw [s0, w0, Nat.cast_zero, add_zero, hc]
      exact a0
    | ⟨1, _⟩ =>
      have a1 : d.start (ix3 e h' k') idx 1 + ((d.window (ix3 e h' k') 1 : ℕ) : ℤ) = (h'.val : ℤ) := by
        rw [s1, w1, zero_add]
      exact a1
    | ⟨2, _⟩ =>
      have a2 : d.start (ix3 e h' k') idx 2 + ((d.window (ix3 e h' k') 2 : ℕ) : ℤ) = (k'.val : ℤ) := by
        rw [s2, w2, zero_add]
      exact a2

/-- Rows of H by D matrices: the accumulation's element (n, h, k). -/
theorem scatterAdd_rows3 {N E H D w : Nat}
    (d : ScatterDims ⟨3, ![N, H, D]⟩ ⟨2, ![E, 1]⟩ ⟨3, ![E, H, D]⟩)
    (h1 : d.updateWindowDims = [1, 2]) (h2 : d.insertedWindowDims = [0]) (h3 : d.scatterDimsToOperandDims = [0])
    (h4 : d.indexVectorDim = 1)
    (x : (⟨3, ![N, H, D]⟩ : Shape).Idx → EReal) (idx : IVec ⟨2, ![E, 1]⟩ w)
    (upd : (⟨3, ![E, H, D]⟩ : Shape).Idx → EReal) (n : Fin N) (h : Fin H) (k : Fin D) :
    Ideal.hostScatterAdd d x idx upd (ix3 n h k)
      = x (ix3 n h k) + ∑ e : Fin E, if (idx (ix2 e (0 : Fin 1))).toInt = (n.val : ℤ) then upd (ix3 e h k) else 0 := by
  have key := fun e h' k' => lands3 d h1 h2 h3 h4 idx e h' k' n h k
  unfold Ideal.hostScatterAdd
  refine congrArg (x (ix3 n h k) + ·) ?_
  rw [Finset.sum_filter, sum_idx3]
  refine Finset.sum_congr rfl (fun e _ => ?_)
  by_cases hc : (idx (ix2 e (0 : Fin 1))).toInt = (n.val : ℤ)
  · rw [if_pos hc, Finset.sum_eq_single h]
    · rw [Finset.sum_eq_single k]
      · rw [if_pos ((key e h k).2 ⟨hc, rfl, rfl⟩)]
      · intro k' _ hne
        rw [if_neg (fun hh => hne ((key e h k').1 hh).2.2)]
      · intro hh
        exact absurd (Finset.mem_univ k) hh
    · intro h' _ hne
      refine Finset.sum_eq_zero (fun k' _ => ?_)
      rw [if_neg (fun hh => hne ((key e h' k').1 hh).2.1)]
    · intro hh
      exact absurd (Finset.mem_univ h) hh
  · rw [if_neg hc]
    refine Finset.sum_eq_zero (fun h' _ => Finset.sum_eq_zero (fun k' _ => ?_))
    rw [if_neg (fun hh => hc ((key e h' k').1 hh).1)]

end Cert.Rows

end
-- ==== Proof.LibRows.lean ====
/-
  Whole rows gathered from, and added into, a table — read at one element: the two files' lemmas under one import.
-/
import proofs.«164880_j36404142800928_1_alg».proof.Proof.LibRowGather
import proofs.«164880_j36404142800928_1_alg».proof.Proof.LibRowScatter
-- ==== Proof.KEdge.lean ====
/-
  One edge, one lane: the kernel's spread score is the specification's score of the lane's head.

  With the gathered rows in place, the product into the grouping matrix sums, for head h, exactly the head's sixteen lane
  products (the matrix is the heads' indicator), each times a quarter, which is each over four; and the product back
  through the transposed matrix hands lane l the score of its head.
-/
import proofs.«164880_j36404142800928_1_alg».proof.Proof.KRegion0
import proofs.«164880_j36404142800928_1_alg».proof.Proof.KTables
import proofs.«164880_j36404142800928_1_alg».proof.Proof.LibRows
import proofs.«164880_j36404142800928_1_alg».proof.Proof.LibGroup

noncomputable section

namespace Cert.KernelIdeal.Edge

open Idealize.ShloMosaic Idealize.ShloMosaic.TcCoe Idealize.SL.Sem Idealize.ShloMosaic.ValueIdx
open Cert.KernelIdeal Cert.Attn

/-- A gathered row, read at one lane: the table's row of the edge's word, clamped, at that lane. -/
private theorem gathered (T : Tbl) (w : EdgeWords) (e : Fin 800000) (l : Fin 128) :
    Host.gather gather_S50000x128_S800000x1_S800000x128_1_0_n_n_0_1_1128 T w (ix2 e l)
      = T (ix2 (rowOf (wordAt w e)) l) :=
  Cert.Rows.gather_rows2 (N := 50000) (E := 800000) (L := 128) (by decide)
    gather_S50000x128_S800000x1_S800000x128_1_0_n_n_0_1_1128 rfl rfl rfl rfl rfl rfl rfl T w e l

/-- The lane product of the gathered rows times a quarter is the specification's product over four. -/
private theorem laneProd (Qt Kt : Tbl) (sK dQ : EdgeWords) (e : Fin 800000) (l : Fin 128) :
    Host.gather gather_S50000x128_S800000x1_S800000x128_1_0_n_n_0_1_1128 Kt sK (ix2 e l)
        * Host.gather gather_S50000x128_S800000x1_S800000x128_1_0_n_n_0_1_1128 Qt dQ (ix2 e l)
        * Ideal.ofBits .f32 0x3E800000#32
      = Ideal.div (prod Qt Kt sK dQ e l) c4 := by
  rw [gathered Kt sK e l, gathered Qt dQ e l, quarter]
  rfl

/-- The product into the lanes-by-heads matrix, at (e, h): the head's sixteen lane products, each over four. -/
private theorem inner_apply (Qt Kt : Tbl) (sK dQ : EdgeWords) (e : Fin 800000) (h : Fin 8) :
    Cert.PlainDot.mm (M := 800000) (K := 128) (N := 8)
        (fun i => Host.gather gather_S50000x128_S800000x1_S800000x128_1_0_n_n_0_1_1128 Kt sK i
          * Host.gather gather_S50000x128_S800000x1_S800000x128_1_0_n_n_0_1_1128 Qt dQ i
          * Ideal.ofBits .f32 0x3E800000#32)
        (fun i => Ideal.ofBits .f32 (lit0 (S128x8.rowMajor i))) (ix2 e h)
      = ∑ d : Fin 16, Ideal.div (prod Qt Kt sK dQ e (lane h d)) c4 := by
  refine (Cert.PlainDot.mm_apply _ _ e h).trans ?_
  refine (sum_group
    (fun l' => Host.gather gather_S50000x128_S800000x1_S800000x128_1_0_n_n_0_1_1128 Kt sK (ix2 e l')
      * Host.gather gather_S50000x128_S800000x1_S800000x128_1_0_n_n_0_1_1128 Qt dQ (ix2 e l')
      * Ideal.ofBits .f32 0x3E800000#32)
    (fun l' => Ideal.ofBits .f32 (lit0 (S128x8.rowMajor (ix2 l' h)))) h
    (fun l' => Tables.groupTable l' h)).trans ?_
  exact Finset.sum_congr rfl fun d _ => laneProd Qt Kt sK dQ e (lane h d)

/-- The spread score at (e, l), for gathered K and Q rows and the two grouping literals. -/
theorem scoreB_apply (Qt Kt : Tbl) (sK dQ : EdgeWords) (e : Fin 800000) (l : Fin 128) :
    Region0.scoreB
        (Host.gather gather_S50000x128_S800000x1_S800000x128_1_0_n_n_0_1_1128 Kt sK)
        (Host.gather gather_S50000x128_S800000x1_S800000x128_1_0_n_n_0_1_1128 Qt dQ)
        (fun i => Ideal.ofBits .f32 (lit0 (S128x8.rowMajor i)))
        (fun i => Ideal.ofBits .f32 (lit1 (S8x128.rowMajor i))) (ix2 e l)
      = score Qt Kt sK dQ e (headOf l) := by
  unfold Region0.scoreB
  refine (Cert.PlainDot.mm_apply _ _ e l).trans ?_
  refine (sum_pick _ (fun h => Ideal.ofBits .f32 (lit1 (S8x128.rowMajor (ix2 h l)))) l
    (fun h => Tables.groupTableT h l)).trans ?_
  show Ideal.exp (min c5 (max cm5 _)) = _
  rw [inner_apply Qt Kt sK dQ e (headOf l)]
  rfl

end Cert.KernelIdeal.Edge

end
-- ==== Proof.KValue.lean ====
/-
  The kernel program's result buffer, at the end of the run, is the specification's result of the four arguments.

  Read backwards: the result is the second call's output reshaped; that output is, element by element, the accumulated
  messages over the accumulated scores plus ε; each accumulation at (n, l) is zero plus the sum over the edges whose raw
  destination word is n of the first call's output at (e, l); and that output is the V row of the edge's source at lane
  l times the edge's score for the lane's head (the messages), or that score itself (the spread scores).
-/
import proofs.«164880_j36404142800928_1_alg».proof.Proof.KHost
import proofs.«164880_j36404142800928_1_alg».proof.Proof.KRegion0
import proofs.«164880_j36404142800928_1_alg».proof.Proof.KRegion1
import proofs.«164880_j36404142800928_1_alg».proof.Proof.KEdge
import proofs.«164880_j36404142800928_1_alg».proof.Proof.LibRows

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat Cfg)
open Cert.KernelIdeal Cert.KernelIdeal.Gen
open Cert.Attn

variable (m : (ℓ : Loc nD τ sig) → Buf (Elt Ideal) ℓ) (ρ : Dev nD → PrngReg)

/-- The arrays the first call finds, by name. -/
theorem arrK_eq (c : Dev nD) : Region0.arrK (V1 m ρ) c
    = Host.gather gather_S50000x128_S800000x1_S800000x128_1_0_n_n_0_1_1128 (flat (m ((c : Thread nD τ).loc main_arg1))) (srcWords (m ((c : Thread nD τ).loc main_arg3))) :=
  HostVals.v13_eq m ρ c
theorem arrQ_eq (c : Dev nD) : Region0.arrQ (V1 m ρ) c
    = Host.gather gather_S50000x128_S800000x1_S800000x128_1_0_n_n_0_1_1128 (flat (m ((c : Thread nD τ).loc main_arg0))) (dstWords (m ((c : Thread nD τ).loc main_arg3))) :=
  HostVals.v20_eq m ρ c
theorem arrV_eq (c : Dev nD) : Region0.arrV (V1 m ρ) c
    = Host.gather gather_S50000x128_S800000x1_S800000x128_1_0_n_n_0_1_1128 (flat (m ((c : Thread nD τ).loc main_arg2))) (srcWords (m ((c : Thread nD τ).loc main_arg3))) :=
  HostVals.v27_eq m ρ c
theorem arrG_eq (c : Dev nD) : Region0.arrG (V1 m ρ) c = fun i => Ideal.ofBits .f32 (lit0 (S128x8.rowMajor i)) :=
  HostVals.cst_eq m ρ c
theorem arrGT_eq (c : Dev nD) : Region0.arrGT (V1 m ρ) c = fun i => Ideal.ofBits .f32 (lit1 (S8x128.rowMajor i)) :=
  HostVals.cst0_eq m ρ c

/-- The first call's spread scores at (e, l): the edge's score for the lane's head. -/
theorem spread_apply (c : Dev nD) (e : Fin 800000) (l : Fin 128) :
    (dat0 (V1 m ρ) c).arrAt 6 cfg0.N (ix2 e l)
      = score (flat (m ((c : Thread nD τ).loc main_arg0))) (flat (m ((c : Thread nD τ).loc main_arg1))) (srcWords (m ((c : Thread nD τ).loc main_arg3))) (dstWords (m ((c : Thread nD τ).loc main_arg3))) e (headOf l) := by
  rw [Region0.final0_6, arrK_eq, arrQ_eq, arrG_eq, arrGT_eq]
  exact Edge.scoreB_apply _ _ _ _ e l

/-- The first call's messages at (e, l): the V row of the edge's source at lane l times that score. -/
theorem message_apply (c : Dev nD) (e : Fin 800000) (l : Fin 128) :
    (dat0 (V1 m ρ) c).arrAt 5 cfg0.N (ix2 e l)
      = msg (flat (m ((c : Thread nD τ).loc main_arg0))) (flat (m ((c : Thread nD τ).loc main_arg1))) (flat (m ((c : Thread nD τ).loc main_arg2))) (srcWords (m ((c : Thread nD τ).loc main_arg3))) (dstWords (m ((c : Thread nD τ).loc main_arg3))) (srcWords (m ((c : Thread nD τ).loc main_arg3))) e l := by
  rw [Region0.final0_5]
  show Region0.arrV (V1 m ρ) c (ix2 e l) * Region0.scoreB (Region0.arrK (V1 m ρ) c) (Region0.arrQ (V1 m ρ) c)
      (Region0.arrG (V1 m ρ) c) (Region0.arrGT (V1 m ρ) c) (ix2 e l) = _
  rw [arrK_eq, arrQ_eq, arrG_eq, arrGT_eq, arrV_eq, Edge.scoreB_apply,
    Cert.Rows.gather_rows2 (by decide) _ rfl rfl rfl rfl rfl rfl rfl]
  rfl

/-- The accumulated messages at (n, l). -/
theorem accW_apply (c : Dev nD) (n : Fin 50000) (l : Fin 128) :
    Region1.arrW (V3 m ρ) c (ix2 n l)
      = wV (flat (m ((c : Thread nD τ).loc main_arg0))) (flat (m ((c : Thread nD τ).loc main_arg1))) (flat (m ((c : Thread nD τ).loc main_arg2))) (srcWords (m ((c : Thread nD τ).loc main_arg3))) (dstWords (m ((c : Thread nD τ).loc main_arg3))) (srcWords (m ((c : Thread nD τ).loc main_arg3)))
          (segWords (m ((c : Thread nD τ).loc main_arg3))) n l := by
  show V3 m ρ c main_v31 (ix2 n l) = _
  rw [HostVals.v31_eq, Cert.Rows.scatterAdd_rows2 _ rfl rfl rfl rfl]
  unfold wV
  refine congrArg (fun s => c0 + s) (Finset.sum_congr rfl fun e _ => ?_)
  rw [message_apply]

/-- The accumulated scores at (n, l): the head's accumulated score. -/
theorem accZ_apply (c : Dev nD) (n : Fin 50000) (l : Fin 128) :
    Region1.arrZ (V3 m ρ) c (ix2 n l)
      = Z (flat (m ((c : Thread nD τ).loc main_arg0))) (flat (m ((c : Thread nD τ).loc main_arg1))) (srcWords (m ((c : Thread nD τ).loc main_arg3))) (dstWords (m ((c : Thread nD τ).loc main_arg3))) (segWords (m ((c : Thread nD τ).loc main_arg3))) n (headOf l) := by
  show V3 m ρ c main_v34 (ix2 n l) = _
  rw [HostVals.v34_eq, Cert.Rows.scatterAdd_rows2 _ rfl rfl rfl rfl]
  unfold Z
  refine congrArg (fun s => c0 + s) (Finset.sum_congr rfl fun e _ => ?_)
  rw [spread_apply]

theorem result_eq (c : Dev nD) : W5 m ρ c (Proc.devRef .tc main_v36)
    = Cert.Attn.result (m ((c : Thread nD τ).loc main_arg0)) (m ((c : Thread nD τ).loc main_arg1)) (m ((c : Thread nD τ).loc main_arg2)) (m ((c : Thread nD τ).loc main_arg3)) := by
  rw [HostVals.v36_eq]
  unfold Cert.Attn.result
  refine congrArg (fun y => shapeCast _ y Cert.Attn.castsUnflat) ?_
  rw [Region1.final1_2]
  funext i
  obtain ⟨n, l, rfl⟩ : ∃ (n : Fin 50000) (l : Fin 128), i = ix2 n l := ⟨i 0, i 1, eq_ix2 i⟩
  show Ideal.div (Region1.arrW (V3 m ρ) c (ix2 n l)) (Region1.arrZ (V3 m ρ) c (ix2 n l) + ceps) = _
  rw [accW_apply, accZ_apply]
  rfl

end Cert.KernelIdeal.KValue

end
-- ==== Proof.RefValue.lean ====
/-
  The reference program's result term is the specification's result of the four arguments.

  The reference works on [·, 8, 16] views: element (n, h, d) of a table's view is element (n, 16 h + d) of the flattened
  table. Read at an index through its operations — the three gathers and two accumulations by the row lemmas — its
  result at (0, n, l) is wV n l / (Z n (l / 16) + ε).
-/
import proofs.«164880_j36404142800928_1_alg».proof.Proof.Gen.ReferenceIdeal.Read
import proofs.«164880_j36404142800928_1_alg».proof.Proof.Spec
import proofs.«164880_j36404142800928_1_alg».proof.Proof.LibRows
import proofs.«164880_j36404142800928_1_alg».proof.Proof.LibGroup

noncomputable section

namespace Cert.ReferenceIdeal.RefValue

open Idealize.ShloMosaic Idealize.ShloMosaic.TcCoe Idealize.SL.Sem Idealize.ShloMosaic.ValueIdx
open Cert.ReferenceIdeal Cert.ReferenceIdeal.Read

/-! ## The five index vectors are the specification's: the same integer operations on the edge list -/

private theorem v12_eq (x3 : S2x800000.Idx → BitVec 32) : val_main_v12 (F := Ideal) x3 = Cert.Attn.srcWords x3 := by
  unfold val_main_v12 val_main_v11 val_main_v10 val_main_v9 val_main_c_0 val_main_v8 val_main_v7 val_main_c
    val_main_v4 val_main_v3 Cert.Attn.srcWords Cert.Attn.asColumn Cert.Attn.wrapped Cert.Attn.edgeRow0
  rfl

private theorem v19_eq (x3 : S2x800000.Idx → BitVec 32) : val_main_v19 (F := Ideal) x3 = Cert.Attn.dstWords x3 := by
  unfold val_main_v19 val_main_v18 val_main_v17 val_main_v16 val_main_c_2 val_main_v15 val_main_v14 val_main_c_1
    val_main_v6 val_main_v5 Cert.Attn.dstWords Cert.Attn.asColumn Cert.Attn.wrapped Cert.Attn.edgeRow1
  rfl

private theorem v33_eq (x3 : S2x800000.Idx → BitVec 32) : val_main_v33 (F := Ideal) x3 = Cert.Attn.srcWords x3 := by
  unfold val_main_v33 val_main_v32 val_main_v31 val_main_v30 val_main_c_7 val_main_v29 val_main_v28 val_main_c_6
    val_main_v4 val_main_v3 Cert.Attn.srcWords Cert.Attn.asColumn Cert.Attn.wrapped Cert.Attn.edgeRow0
  rfl

private theorem v38_eq (x3 : S2x800000.Idx → BitVec 32) : val_main_v38 (F := Ideal) x3 = Cert.Attn.segWords x3 := by
  unfold val_main_v38 val_main_v6 val_main_v5 Cert.Attn.segWords Cert.Attn.asColumn Cert.Attn.edgeRow1
  rfl

private theorem v41_eq (x3 : S2x800000.Idx → BitVec 32) : val_main_v41 (F := Ideal) x3 = Cert.Attn.segWords x3 := by
  unfold val_main_v41 val_main_v6 val_main_v5 Cert.Attn.segWords Cert.Attn.asColumn Cert.Attn.edgeRow1
  rfl

/-! ## A table's [·, 8, 16] view at (r, h, d) is the flattened table at (r, 16 h + d): the same row-major position
    ((r · 8 + h) · 16 + d = r · 128 + (16 h + d)) of the argument -/

private theorem view0 (x : S1x50000x128.Idx → EReal) (r : Fin 50000) (h : Fin 8) (d : Fin 16) :
    val_main_v0 (F := Ideal) x (ix3 r h d) = Cert.Attn.flat x (ix2 r (Cert.Attn.lane h d)) := by
  rw [val_main_v0_apply]
  unfold Cert.Attn.flat
  refine (shapeCast_apply x Cert.Attn.castsFlat (ix2 r (Cert.Attn.lane h d)) (idx_main_v0 (ix3 r h d)) ?_).symm
  rewrite [Shape.rowMajor_val_three, Shape.rowMajor_val_two]
  have h0 := r.isLt; have h1 := h.isLt; have h2 := d.isLt
  show (0 * 50000 + ((r.val * 8 + h.val) * 16 + d.val) / 128 % 50000) * 128 + ((r.val * 8 + h.val) * 16 + d.val) % 128
    = r.val * 128 + (16 * h.val + d.val)
  omega

private theorem view1 (x : S1x50000x128.Idx → EReal) (r : Fin 50000) (h : Fin 8) (d : Fin 16) :
    val_main_v1 (F := Ideal) x (ix3 r h d) = Cert.Attn.flat x (ix2 r (Cert.Attn.lane h d)) := view0 x r h d

private theorem view2 (x : S1x50000x128.Idx → EReal) (r : Fin 50000) (h : Fin 8) (d : Fin 16) :
    val_main_v2 (F := Ideal) x (ix3 r h d) = Cert.Attn.flat x (ix2 r (Cert.Attn.lane h d)) := view0 x r h d

/-! ## An accumulation read at one element, for tables of any size: the operand's element plus the sum, over the edges
    whose segment word read signed is the row, of the update's element -/

private theorem scatterAdd_at {N E H D w : Nat}
    (d : ScatterDims ⟨3, ![N, H, D]⟩ ⟨2, ![E, 1]⟩ ⟨3, ![E, H, D]⟩)
    (h1 : d.updateWindowDims = [1, 2]) (h2 : d.insertedWindowDims = [0]) (h3 : d.scatterDimsToOperandDims = [0])
    (h4 : d.indexVectorDim = 1)
    (x : FVec Ideal ⟨3, ![N, H, D]⟩ .f32) (idx : IVec ⟨2, ![E, 1]⟩ w) (upd : FVec Ideal ⟨3, ![E, H, D]⟩ .f32)
    (n : Fin N) (h : Fin H) (k : Fin D) :
    Host.scatterAdd d x idx upd (ix3 n h k)
      = x (ix3 n h k) + ∑ e : Fin E, if (idx (ix2 e (0 : Fin 1))).toInt = (n.val : ℤ) then upd (ix3 e h k) else 0 :=
  Cert.Rows.scatterAdd_rows3 d h1 h2 h3 h4 x idx upd n h k

section
variable (x0 x1 x2 : S1x50000x128.Idx → EReal) (x3 : S2x800000.Idx → BitVec 32)

/-! ## The per-edge quantities -/

/-- The product of the two gathered rows on a lane is the specification's product. -/
private theorem prod_eq (e : Fin 800000) (h : Fin 8) (d : Fin 16) :
    val_main_v21 (F := Ideal) x0 x1 x3 (ix3 e h d)
      = Cert.Attn.prod (Cert.Attn.flat x0) (Cert.Attn.flat x1) (Cert.Attn.srcWords x3) (Cert.Attn.dstWords x3) e
          (Cert.Attn.lane h d) := by
  rw [val_main_v21_apply]
  unfold val_main_v13 val_main_v20
  rw [v12_eq, v19_eq]
  rw [Cert.Rows.gather_rows3 (N := 50000) (E := 800000) (H := 8) (D := 16) (by decide) gather_S50000x8x16_S800000x1_S800000x8x16_12_0_n_n_0_1_1816 rfl rfl rfl rfl rfl rfl rfl,
    Cert.Rows.gather_rows3 (N := 50000) (E := 800000) (H := 8) (D := 16) (by decide) gather_S50000x8x16_S800000x1_S800000x8x16_12_0_n_n_0_1_1816 rfl rfl rfl rfl rfl rfl rfl]
  rw [view1, view0, Ideal.mulf_def]
  unfold Cert.Attn.prod Cert.Attn.rowOf
  rfl

/-- The edge's score for a head: the initial value of the sum over the head's lanes is zero. -/
private theorem score_eq (e : Fin 800000) (h : Fin 8) (z : Fin 1) :
    val_main_v27 (F := Ideal) x0 x1 x3 (ix3 e h z)
      = Cert.Attn.score (Cert.Attn.flat x0) (Cert.Attn.flat x1) (Cert.Attn.srcWords x3) (Cert.Attn.dstWords x3) e h := by
  rw [val_main_v27_apply, val_main_v26_apply, val_main_call0_v4_apply, val_main_call0_v3_apply, val_main_cst_5_apply,
    val_main_call0_v2_apply, val_main_call0_v1_apply, val_main_call0_v0_apply, val_main_cst_4_apply,
    val_main_v25_apply, val_main_v24_apply, val_main_cst_3_apply]
  simp only [Ideal.hostUnary_exp_def, Ideal.minimumf_def, Ideal.maximumf_def, Ideal.ofBits_def]
  unfold Cert.Attn.score
  rw [Cert.Attn.ofBits_zero, zero_add]
  refine congrArg Ideal.exp (congrArg (min _) (congrArg (max _) (Finset.sum_congr rfl fun k _ => ?_)))
  rw [val_main_v23_apply, val_main_v22_apply, val_main_cst_apply]
  simp only [Ideal.hostDivf_def, Ideal.ofBits_def]
  have hk : idx_main_v24 (idx_main_v25 (ix3 e h z)) k = ix3 e h k :=
    funext fun a => Fin.ext (by match a with | ⟨0, _⟩ => rfl | ⟨1, _⟩ => rfl | ⟨2, _⟩ => rfl)
  rw [hk, prod_eq]

/-- The edge's message on a lane: the gathered row times the score of the lane's head. -/
private theorem msg_eq (e : Fin 800000) (h : Fin 8) (d : Fin 16) :
    val_main_v36 (F := Ideal) x0 x1 x2 x3 (ix3 e h d)
      = Cert.Attn.msg (Cert.Attn.flat x0) (Cert.Attn.flat x1) (Cert.Attn.flat x2) (Cert.Attn.srcWords x3)
          (Cert.Attn.dstWords x3) (Cert.Attn.srcWords x3) e (Cert.Attn.lane h d) := by
  rw [val_main_v36_apply, val_main_v35_apply]
  unfold val_main_v34
  rw [v33_eq,
    Cert.Rows.gather_rows3 (N := 50000) (E := 800000) (H := 8) (D := 16) (by decide) gather_S50000x8x16_S800000x1_S800000x8x16_12_0_n_n_0_1_1816 rfl rfl rfl rfl rfl rfl rfl,
    view2]
  have hk : idx_main_v35 (ix3 e h d) = ix3 e h (0 : Fin 1) :=
    funext fun a => Fin.ext (by match a with | ⟨0, _⟩ => rfl | ⟨1, _⟩ => rfl | ⟨2, _⟩ => rfl)
  rw [hk, score_eq, Ideal.mulf_def]
  unfold Cert.Attn.msg Cert.Attn.rowOf
  rw [Cert.Attn.headOf_lane]

/-! ## The two accumulations -/

/-- The node's accumulated messages on a lane. -/
private theorem wV_eq (n : Fin 50000) (h : Fin 8) (d : Fin 16) :
    val_main_v39 (F := Ideal) x0 x1 x2 x3 (ix3 n h d)
      = Cert.Attn.wV (Cert.Attn.flat x0) (Cert.Attn.flat x1) (Cert.Attn.flat x2) (Cert.Attn.srcWords x3)
          (Cert.Attn.dstWords x3) (Cert.Attn.srcWords x3) (Cert.Attn.segWords x3) n (Cert.Attn.lane h d) := by
  unfold val_main_v39
  rw [v38_eq]
  rw [scatterAdd_at (N := 50000) (E := 800000) (H := 8) (D := 16)
    scatter_S50000x8x16_S800000x1_S800000x8x16_12_0_0_1 rfl rfl rfl rfl]
  rw [val_main_v37_apply, val_main_cst_8_apply, Ideal.ofBits_def]
  unfold Cert.Attn.wV
  refine congrArg (_ + ·) (Finset.sum_congr rfl fun e _ => ?_)
  rw [msg_eq]

/-- The node's accumulated scores for a head. -/
private theorem Z_eq (n : Fin 50000) (h : Fin 8) (z : Fin 1) :
    val_main_v42 (F := Ideal) x0 x1 x3 (ix3 n h z)
      = Cert.Attn.Z (Cert.Attn.flat x0) (Cert.Attn.flat x1) (Cert.Attn.srcWords x3) (Cert.Attn.dstWords x3)
          (Cert.Attn.segWords x3) n h := by
  unfold val_main_v42
  rw [v41_eq]
  rw [scatterAdd_at (N := 50000) (E := 800000) (H := 8) (D := 1)
    scatter_S50000x8x1_S800000x1_S800000x8x1_12_0_0_1 rfl rfl rfl rfl]
  rw [val_main_v40_apply, val_main_cst_9_apply, Ideal.ofBits_def]
  unfold Cert.Attn.Z
  refine congrArg (_ + ·) (Finset.sum_congr rfl fun e _ => ?_)
  rw [score_eq]

end

/-! ## The result: at (0, n, l), with h = l / 16 and d = l % 16 (so 16 h + d = l), the view's element (n, h, d) -/

theorem result_eq (x0 x1 x2 : S1x50000x128.Idx → EReal) (x3 : S2x800000.Idx → BitVec 32) :
    val_main_v47 (F := Ideal) x0 x1 x2 x3 = Cert.Attn.result x0 x1 x2 x3 := by
  funext i
  obtain ⟨z, n, l, rfl⟩ : ∃ (z : Fin 1) (n : Fin 50000) (l : Fin 128), i = ix3 z n l := ⟨i 0, i 1, i 2, eq_ix3 i⟩
  have hz := z.isLt; have hn := n.isLt; have hl := l.isLt
  have hlane : Cert.Attn.lane (Cert.Attn.headOf l) (⟨l.val % 16, Nat.mod_lt _ (by decide)⟩ : Fin 16) = l :=
    Fin.ext (by show 16 * (l.val / 16) + l.val % 16 = l.val; omega)
  have hi : idx_main_v47 (ix3 z n l) = ix3 n (Cert.Attn.headOf l) (⟨l.val % 16, Nat.mod_lt _ (by decide)⟩ : Fin 16) :=
    funext fun a => Fin.ext (by
      match a with
      | ⟨0, _⟩ => show ((z.val * 50000 + n.val) * 128 + l.val) / 128 = n.val; omega
      | ⟨1, _⟩ => show ((z.val * 50000 + n.val) * 128 + l.val) / 16 % 8 = l.val / 16; omega
      | ⟨2, _⟩ => show ((z.val * 50000 + n.val) * 128 + l.val) % 16 = l.val % 16; omega)
  rw [val_main_v47_apply, hi, val_main_v46_apply, val_main_v45_apply, val_main_v44_apply, val_main_v43_apply,
    val_main_cst_10_apply]
  have hk : idx_main_v45 (ix3 n (Cert.Attn.headOf l) (⟨l.val % 16, Nat.mod_lt _ (by decide)⟩ : Fin 16))
      = ix3 n (Cert.Attn.headOf l) (0 : Fin 1) :=
    funext fun a => Fin.ext (by match a with | ⟨0, _⟩ => rfl | ⟨1, _⟩ => rfl | ⟨2, _⟩ => rfl)
  rw [hk, wV_eq, Z_eq, hlane]
  simp only [Ideal.hostDivf_def, Ideal.addf_def, Ideal.ofBits_def]
  unfold Cert.Attn.result
  rw [shapeCast_apply _ Cert.Attn.castsUnflat (ix3 z n l) (ix2 n l) (by
    rewrite [Shape.rowMajor_val_two, Shape.rowMajor_val_three]
    show n.val * 128 + l.val = (z.val * 50000 + n.val) * 128 + l.val
    omega)]
  unfold Cert.Attn.out
  rfl

end Cert.ReferenceIdeal.RefValue

end
-- ==== Proof.lean ====
/-
  A sparse attention layer on a graph, against its plain reference: N = 50000 nodes of 128 lanes (8 heads of 16),
  E = 800000 edges. Both programs gather, per edge, the K and V rows of the edge's source and the Q row of its
  destination; form each head's score exp (clip (∑ over the head's 16 lanes of K · Q / 4)); accumulate, per destination
  node, the messages V · score and the scores; and divide the first by the second plus ε.

  The kernel program does the per-edge arithmetic on flat 128-lane rows in a first call — the head sums as a product with
  a 128 by 8 matrix of zeros and ones, the scores spread back over their lanes by the transposed matrix, the quarter as a
  factor where the reference divides by four — leaves the gathers and the accumulations to the host, and divides in a
  second call. Over the extended reals x · 0 = 0 and x · 1 = x for every x, so the products with the grouping matrices
  are the head sums whatever the operands, times a quarter is over four, and nothing else differs but the arrangement
  of the lanes: the two results are one function of the arguments (Proof/Spec.lean), with no use of the precondition.

  The three frames: the two kernel programs' are the generated frame certificates; the reference has no kernel, and its
  frame is its generated run with the result dropped. The idealization rewrote nothing, so `preserves` is `True`.
-/
import proofs.«164880_j36404142800928_1_alg».proof.Defs
import proofs.«164880_j36404142800928_1_alg».proof.Proof.Gen.Kernel
import proofs.«164880_j36404142800928_1_alg».proof.Proof.Gen.Kernel.Skeleton
import proofs.«164880_j36404142800928_1_alg».proof.Proof.Gen.Kernel.Launch
import proofs.«164880_j36404142800928_1_alg».proof.Proof.Gen.Kernel.Points
import proofs.«164880_j36404142800928_1_alg».proof.Proof.Gen.Kernel.Frame
import proofs.«164880_j36404142800928_1_alg».proof.Proof.Gen.KernelIdeal
import proofs.«164880_j36404142800928_1_alg».proof.Proof.Gen.KernelIdeal.Skeleton
import proofs.«164880_j36404142800928_1_alg».proof.Proof.Gen.KernelIdeal.Launch
import proofs.«164880_j36404142800928_1_alg».proof.Proof.Gen.KernelIdeal.Points
import proofs.«164880_j36404142800928_1_alg».proof.Proof.Gen.KernelIdeal.Frame
import proofs.«164880_j36404142800928_1_alg».proof.Proof.Gen.ReferenceIdeal
import proofs.«164880_j36404142800928_1_alg».proof.Proof.Gen.ReferenceIdeal.Run
import proofs.«164880_j36404142800928_1_alg».proof.Proof.Gen.ReferenceIdeal.Read
import proofs.«164880_j36404142800928_1_alg».proof.Proof.Gen.Pre_finite_inputs
import proofs.«164880_j36404142800928_1_alg».proof.Proof.KRun
import proofs.«164880_j36404142800928_1_alg».proof.Proof.KValue
import proofs.«164880_j36404142800928_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the specification's result of the (agreeing) arguments. -/
theorem algebraic : Cert.algebraic_KernelIdeal_ReferenceIdeal := by
  intro m ρ m' ρ' _ hagree
  refine ⟨fun c => Cert.Attn.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KValue.result_eq m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v47_eq, Cert.ReferenceIdeal.RefValue.result_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
